-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S4x262144x32 : Shape := ⟨3, ![4, 262144, 32]⟩
abbrev S262144x50 : Shape := ⟨2, ![262144, 50]⟩
abbrev S64x32 : Shape := ⟨2, ![64, 32]⟩
abbrev S64 : Shape := ⟨1, ![64]⟩
abbrev S4x100x64 : Shape := ⟨3, ![4, 100, 64]⟩
abbrev S4x100 : Shape := ⟨2, ![4, 100]⟩
abbrev S4x32x100 : Shape := ⟨3, ![4, 32, 100]⟩
abbrev S4x32 : Shape := ⟨2, ![4, 32]⟩
abbrev S200x192 : Shape := ⟨2, ![200, 192]⟩
abbrev S200x50 : Shape := ⟨2, ![200, 50]⟩
abbrev S200 : Shape := ⟨1, ![200]⟩
abbrev S100x50 : Shape := ⟨2, ![100, 50]⟩
abbrev S100 : Shape := ⟨1, ![100]⟩
abbrev S100x100 : Shape := ⟨2, ![100, 100]⟩
abbrev S64x100 : Shape := ⟨2, ![64, 100]⟩
abbrev S16x64 : Shape := ⟨2, ![16, 64]⟩
abbrev S16 : Shape := ⟨1, ![16]⟩
abbrev S1x16 : Shape := ⟨2, ![1, 16]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S4x262144x32 : S_.BroadcastsInDim S4x262144x32 (![] : Fin 0 → Fin S4x262144x32.rank)
  reducesTo_S4x262144x32_S_d0_1_2 : S4x262144x32.ReducesTo [0, 1, 2] S_
  bcast_S_S262144x50 : S_.BroadcastsInDim S262144x50 (![] : Fin 0 → Fin S262144x50.rank)
  reducesTo_S262144x50_S_d0_1 : S262144x50.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S4x100x64 : S_.BroadcastsInDim S4x100x64 (![] : Fin 0 → Fin S4x100x64.rank)
  reducesTo_S4x100x64_S_d0_1_2 : S4x100x64.ReducesTo [0, 1, 2] S_
  bcast_S_S4x100 : S_.BroadcastsInDim S4x100 (![] : Fin 0 → Fin S4x100.rank)
  reducesTo_S4x100_S_d0_1 : S4x100.ReducesTo [0, 1] S_
  bcast_S_S4x32x100 : S_.BroadcastsInDim S4x32x100 (![] : Fin 0 → Fin S4x32x100.rank)
  reducesTo_S4x32x100_S_d0_1_2 : S4x32x100.ReducesTo [0, 1, 2] S_
  bcast_S_S4x32 : S_.BroadcastsInDim S4x32 (![] : Fin 0 → Fin S4x32.rank)
  reducesTo_S4x32_S_d0_1 : S4x32.ReducesTo [0, 1] S_
  bcast_S_S200x192 : S_.BroadcastsInDim S200x192 (![] : Fin 0 → Fin S200x192.rank)
  reducesTo_S200x192_S_d0_1 : S200x192.ReducesTo [0, 1] S_
  bcast_S_S200x50 : S_.BroadcastsInDim S200x50 (![] : Fin 0 → Fin S200x50.rank)
  reducesTo_S200x50_S_d0_1 : S200x50.ReducesTo [0, 1] S_
  bcast_S_S200 : S_.BroadcastsInDim S200 (![] : Fin 0 → Fin S200.rank)
  reducesTo_S200_S_d0 : S200.ReducesTo [0] S_
  bcast_S_S100x50 : S_.BroadcastsInDim S100x50 (![] : Fin 0 → Fin S100x50.rank)
  reducesTo_S100x50_S_d0_1 : S100x50.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S64x100 : S_.BroadcastsInDim S64x100 (![] : Fin 0 → Fin S64x100.rank)
  reducesTo_S64x100_S_d0_1 : S64x100.ReducesTo [0, 1] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_

variable [Facts]

def fn_part7 {F : FTy → Type} [FloatOps F] (main_arg25 : FVec F S1x16 .f32) (main_v118 : IVec S_ 1) (main_v119 : FVec F S1x16 .f32) : IVec S_ 1 :=
  let main_cst_46 : FVec F S_ .f32 := constant S_ .f32 0x7F800000#32
  let main_v120 : FVec F S1x16 .f32 := broadcastInDim S1x16 ![] bcast_S_S1x16 main_cst_46
  let main_v121 : IVec S1x16 1 := cmpf .olt main_v119 main_v120
  let main_c_47 : IVec S_ 1 := constantI S_ 1 1#1
  let main_v122 : IVec S_ 1 := (fun x v => Host.reduce IntOp.andi x v reducesTo_S1x16_S_d0_1 h_S_) main_v121 main_c_47
  let main_v123 : IVec S_ 1 := andi main_v118 main_v122
  let main_v124 : FVec F S1x16 .f32 := Host.absf main_arg25
  let main_cst_48 : FVec F S_ .f32 := constant S_ .f32 0x7F800000#32
  let main_v125 : FVec F S1x16 .f32 := broadcastInDim S1x16 ![] bcast_S_S1x16 main_cst_48
  let main_v126 : IVec S1x16 1 := cmpf .olt main_v124 main_v125
  let main_c_49 : IVec S_ 1 := constantI S_ 1 1#1
  let main_v127 : IVec S_ 1 := (fun x v => Host.reduce IntOp.andi x v reducesTo_S1x16_S_d0_1 h_S_) main_v126 main_c_49
  let main_v128 : IVec S_ 1 := andi main_v123 main_v127
  main_v128

def fn_part6 {F : FTy → Type} [FloatOps F] (main_arg21 : FVec F S16 .f32) (main_arg22 : FVec F S16x64 .f32) (main_arg23 : FVec F S16 .f32) (main_arg24 : FVec F S1x16 .f32) (main_arg25 : FVec F S1x16 .f32) (main_v98 : IVec S_ 1) (main_v101 : IVec S16x64 1) (main_c_39 : IVec S_ 1) : IVec S_ 1 :=
  let main_v102 : IVec S_ 1 := (fun x v => Host.reduce IntOp.andi x v reducesTo_S16x64_S_d0_1 h_S_) main_v101 main_c_39
  let main_v103 : IVec S_ 1 := andi main_v98 main_v102
  let main_v104 : FVec F S16 .f32 := Host.absf main_arg21
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S16x64 .f32 := Host.absf main_arg22
  let main_cst_42 : FVec F S_ .f32 := constant S_ .f32 0x7F800000#32
  let main_v110 : FVec F S16x64 .f32 := broadcastInDim S16x64 ![] bcast_S_S16x64 main_cst_42
  let main_v111 : IVec S16x64 1 := cmpf .olt main_v109 main_v110
  let main_c_43 : IVec S_ 1 := constantI S_ 1 1#1
  let main_v112 : IVec S_ 1 := (fun x v => Host.reduce IntOp.andi x v reducesTo_S16x64_S_d0_1 h_S_) main_v111 main_c_43
  let main_v113 : IVec S_ 1 := andi main_v108 main_v112
  let main_v114 : FVec F S16 .f32 := Host.absf main_arg23
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S1x16 .f32 := Host.absf main_arg24
  fn_part7 (F := F) main_arg25 main_v118 main_v119

def fn_part5 {F : FTy → Type} [FloatOps F] (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) (main_v83 : IVec S_ 1) (main_v84 : FVec F S100 .f32) (main_cst_32 : FVec F S_ .f32) : IVec S_ 1 :=
  let main_v85 : FVec F S100 .f32 := broadcastInDim S100 ![] bcast_S_S100 main_cst_32
  let main_v86 : IVec S100 1 := cmpf .olt main_v84 main_v85
  let main_c_33 : IVec S_ 1 := constantI S_ 1 1#1
  let main_v87 : IVec S_ 1 := (fun x v => Host.reduce IntOp.andi x v reducesTo_S100_S_d0 h_S_) main_v86 main_c_33
  let main_v88 : IVec S_ 1 := andi main_v83 main_v87
  let main_v89 : FVec F S64x100 .f32 := Host.absf main_arg18
  let main_cst_34 : FVec F S_ .f32 := constant S_ .f32 0x7F800000#32
  let main_v90 : FVec F S64x100 .f32 := broadcastInDim S64x100 ![] bcast_S_S64x100 main_cst_34
  let main_v91 : IVec S64x100 1 := cmpf .olt main_v89 main_v90
  let main_c_35 : IVec S_ 1 := constantI S_ 1 1#1
  let main_v92 : IVec S_ 1 := (fun x v => Host.reduce IntOp.andi x v reducesTo_S64x100_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S16x64 .f32 := Host.absf main_arg20
  let main_cst_38 : FVec F S_ .f32 := constant S_ .f32 0x7F800000#32
  let main_v100 : FVec F S16x64 .f32 := broadcastInDim S16x64 ![] bcast_S_S16x64 main_cst_38
  let main_v101 : IVec S16x64 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S100x50 .f32) (main_arg15 : FVec F S100 .f32) (main_arg16 : FVec F S100x100 .f32) (main_arg17 : FVec F S100 .f32) (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) (main_v63 : IVec S_ 1) (main_v67 : IVec S_ 1) : IVec S_ 1 :=
  let main_v68 : IVec S_ 1 := andi main_v63 main_v67
  let main_v69 : FVec F S100x50 .f32 := Host.absf main_arg14
  let main_cst_26 : FVec F S_ .f32 := constant S_ .f32 0x7F800000#32
  let main_v70 : FVec F S100x50 .f32 := broadcastInDim S100x50 ![] bcast_S_S100x50 main_cst_26
  let main_v71 : IVec S100x50 1 := cmpf .olt main_v69 main_v70
  let main_c_27 : IVec S_ 1 := constantI S_ 1 1#1
  let main_v72 : IVec S_ 1 := (fun x v => Host.reduce IntOp.andi x v reducesTo_S100x50_S_d0_1 h_S_) main_v71 main_c_27
  let main_v73 : IVec S_ 1 := andi main_v68 main_v72
  let main_v74 : FVec F S100 .f32 := Host.absf main_arg15
  let main_cst_28 : FVec F S_ .f32 := constant S_ .f32 0x7F800000#32
  let main_v75 : FVec F S100 .f32 := broadcastInDim S100 ![] bcast_S_S100 main_cst_28
  let main_v76 : IVec S100 1 := cmpf .olt main_v74 main_v75
  let main_c_29 : IVec S_ 1 := constantI S_ 1 1#1
  let main_v77 : IVec S_ 1 := (fun x v => Host.reduce IntOp.andi x v reducesTo_S100_S_d0 h_S_) main_v76 main_c_29
  let main_v78 : IVec S_ 1 := andi main_v73 main_v77
  let main_v79 : FVec F S100x100 .f32 := Host.absf main_arg16
  let main_cst_30 : FVec F S_ .f32 := constant S_ .f32 0x7F800000#32
  let main_v80 : FVec F S100x100 .f32 := broadcastInDim S100x100 ![] bcast_S_S100x100 main_cst_30
  let main_v81 : IVec S100x100 1 := cmpf .olt main_v79 main_v80
  let main_c_31 : IVec S_ 1 := constantI S_ 1 1#1
  let main_v82 : IVec S_ 1 := (fun x v => Host.reduce IntOp.andi x v reducesTo_S100x100_S_d0_1 h_S_) main_v81 main_c_31
  let main_v83 : IVec S_ 1 := andi main_v78 main_v82
  let main_v84 : FVec F S100 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S200x50 .f32) (main_arg12 : FVec F S200 .f32) (main_arg13 : FVec F S200 .f32) (main_arg14 : FVec F S100x50 .f32) (main_arg15 : FVec F S100 .f32) (main_arg16 : FVec F S100x100 .f32) (main_arg17 : FVec F S100 .f32) (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) (main_v48 : IVec S_ 1) (main_v49 : FVec F S200x192 .f32) (main_v50 : FVec F S200x192 .f32) : IVec S_ 1 :=
  let main_v51 : IVec S200x192 1 := cmpf .olt main_v49 main_v50
  let main_c_19 : IVec S_ 1 := constantI S_ 1 1#1
  let main_v52 : IVec S_ 1 := (fun x v => Host.reduce IntOp.andi x v reducesTo_S200x192_S_d0_1 h_S_) main_v51 main_c_19
  let main_v53 : IVec S_ 1 := andi main_v48 main_v52
  let main_v54 : FVec F S200x50 .f32 := Host.absf main_arg11
  let main_cst_20 : FVec F S_ .f32 := constant S_ .f32 0x7F800000#32
  let main_v55 : FVec F S200x50 .f32 := broadcastInDim S200x50 ![] bcast_S_S200x50 main_cst_20
  let main_v56 : IVec S200x50 1 := cmpf .olt main_v54 main_v55
  let main_c_21 : IVec S_ 1 := constantI S_ 1 1#1
  let main_v57 : IVec S_ 1 := (fun x v => Host.reduce IntOp.andi x v reducesTo_S200x50_S_d0_1 h_S_) main_v56 main_c_21
  let main_v58 : IVec S_ 1 := andi main_v53 main_v57
  let main_v59 : FVec F S200 .f32 := Host.absf main_arg12
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S200 .f32 := Host.absf main_arg13
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S4x100 .f32) (main_arg8 : FVec F S4x32x100 .f32) (main_arg9 : FVec F S4x32 .f32) (main_arg10 : FVec F S200x192 .f32) (main_arg11 : FVec F S200x50 .f32) (main_arg12 : FVec F S200 .f32) (main_arg13 : FVec F S200 .f32) (main_arg14 : FVec F S100x50 .f32) (main_arg15 : FVec F S100 .f32) (main_arg16 : FVec F S100x100 .f32) (main_arg17 : FVec F S100 .f32) (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) (main_v33 : IVec S_ 1) : IVec S_ 1 :=
  let main_v34 : FVec F S4x100 .f32 := Host.absf main_arg7
  let main_cst_12 : FVec F S_ .f32 := constant S_ .f32 0x7F800000#32
  let main_v35 : FVec F S4x100 .f32 := broadcastInDim S4x100 ![] bcast_S_S4x100 main_cst_12
  let main_v36 : IVec S4x100 1 := cmpf .olt main_v34 main_v35
  let main_c_13 : IVec S_ 1 := constantI S_ 1 1#1
  let main_v37 : IVec S_ 1 := (fun x v => Host.reduce IntOp.andi x v reducesTo_S4x100_S_d0_1 h_S_) main_v36 main_c_13
  let main_v38 : IVec S_ 1 := andi main_v33 main_v37
  let main_v39 : FVec F S4x32x100 .f32 := Host.absf main_arg8
  let main_cst_14 : FVec F S_ .f32 := constant S_ .f32 0x7F800000#32
  let main_v40 : FVec F S4x32x100 .f32 := broadcastInDim S4x32x100 ![] bcast_S_S4x32x100 main_cst_14
  let main_v41 : IVec S4x32x100 1 := cmpf .olt main_v39 main_v40
  let main_c_15 : IVec S_ 1 := constantI S_ 1 1#1
  let main_v42 : IVec S_ 1 := (fun x v => Host.reduce IntOp.andi x v reducesTo_S4x32x100_S_d0_1_2 h_S_) main_v41 main_c_15
  let main_v43 : IVec S_ 1 := andi main_v38 main_v42
  let main_v44 : FVec F S4x32 .f32 := Host.absf main_arg9
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S200x192 .f32 := Host.absf main_arg10
  let main_cst_18 : FVec F S_ .f32 := constant S_ .f32 0x7F800000#32
  let main_v50 : FVec F S200x192 .f32 := broadcastInDim S200x192 ![] bcast_S_S200x192 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S64x32 .f32) (main_arg5 : FVec F S64 .f32) (main_arg6 : FVec F S4x100x64 .f32) (main_arg7 : FVec F S4x100 .f32) (main_arg8 : FVec F S4x32x100 .f32) (main_arg9 : FVec F S4x32 .f32) (main_arg10 : FVec F S200x192 .f32) (main_arg11 : FVec F S200x50 .f32) (main_arg12 : FVec F S200 .f32) (main_arg13 : FVec F S200 .f32) (main_arg14 : FVec F S100x50 .f32) (main_arg15 : FVec F S100 .f32) (main_arg16 : FVec F S100x100 .f32) (main_arg17 : FVec F S100 .f32) (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) (main_v13 : IVec S_ 1) (main_v16 : IVec S262144x50 1) : IVec S_ 1 :=
  let main_c_5 : IVec S_ 1 := constantI S_ 1 1#1
  let main_v17 : IVec S_ 1 := (fun x v => Host.reduce IntOp.andi x v reducesTo_S262144x50_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x100x64 .f32 := Host.absf main_arg6
  let main_cst_10 : FVec F S_ .f32 := constant S_ .f32 0x7F800000#32
  let main_v30 : FVec F S4x100x64 .f32 := broadcastInDim S4x100x64 ![] bcast_S_S4x100x64 main_cst_10
  let main_v31 : IVec S4x100x64 1 := cmpf .olt main_v29 main_v30
  let main_c_11 : IVec S_ 1 := constantI S_ 1 1#1
  let main_v32 : IVec S_ 1 := (fun x v => Host.reduce IntOp.andi x v reducesTo_S4x100x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S262144x32 .f32) (main_arg1 : FVec F S4x262144x32 .f32) (main_arg2 : FVec F S262144x50 .f32) (main_arg3 : FVec F S262144x50 .f32) (main_arg4 : FVec F S64x32 .f32) (main_arg5 : FVec F S64 .f32) (main_arg6 : FVec F S4x100x64 .f32) (main_arg7 : FVec F S4x100 .f32) (main_arg8 : FVec F S4x32x100 .f32) (main_arg9 : FVec F S4x32 .f32) (main_arg10 : FVec F S200x192 .f32) (main_arg11 : FVec F S200x50 .f32) (main_arg12 : FVec F S200 .f32) (main_arg13 : FVec F S200 .f32) (main_arg14 : FVec F S100x50 .f32) (main_arg15 : FVec F S100 .f32) (main_arg16 : FVec F S100x100 .f32) (main_arg17 : FVec F S100 .f32) (main_arg18 : FVec F S64x100 .f32) (main_arg19 : FVec F S64 .f32) (main_arg20 : FVec F S16x64 .f32) (main_arg21 : FVec F S16 .f32) (main_arg22 : FVec F S16x64 .f32) (main_arg23 : FVec F S16 .f32) (main_arg24 : FVec F S1x16 .f32) (main_arg25 : FVec F S1x16 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S4x262144x32 .f32 := Host.absf main_arg1
  let main_cst_0 : FVec F S_ .f32 := constant S_ .f32 0x7F800000#32
  let main_v5 : FVec F S4x262144x32 .f32 := broadcastInDim S4x262144x32 ![] bcast_S_S4x262144x32 main_cst_0
  let main_v6 : IVec S4x262144x32 1 := cmpf .olt main_v4 main_v5
  let main_c_1 : IVec S_ 1 := constantI S_ 1 1#1
  let main_v7 : IVec S_ 1 := (fun x v => Host.reduce IntOp.andi x v reducesTo_S4x262144x32_S_d0_1_2 h_S_) main_v6 main_c_1
  let main_v8 : IVec S_ 1 := andi main_v3 main_v7
  let main_v9 : FVec F S262144x50 .f32 := Host.absf main_arg2
  let main_cst_2 : FVec F S_ .f32 := constant S_ .f32 0x7F800000#32
  let main_v10 : FVec F S262144x50 .f32 := broadcastInDim S262144x50 ![] bcast_S_S262144x50 main_cst_2
  let main_v11 : IVec S262144x50 1 := cmpf .olt main_v9 main_v10
  let main_c_3 : IVec S_ 1 := constantI S_ 1 1#1
  let main_v12 : IVec S_ 1 := (fun x v => Host.reduce IntOp.andi x v reducesTo_S262144x50_S_d0_1 h_S_) main_v11 main_c_3
  let main_v13 : IVec S_ 1 := andi main_v8 main_v12
  let main_v14 : FVec F S262144x50 .f32 := Host.absf main_arg3
  let main_cst_4 : FVec F S_ .f32 := constant S_ .f32 0x7F800000#32
  let main_v15 : FVec F S262144x50 .f32 := broadcastInDim S262144x50 ![] bcast_S_S262144x50 main_cst_4
  let main_v16 : IVec S262144x50 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S262144x32 : Shape := ⟨2, ![262144, 32]⟩
abbrev S4x262144x32 : Shape := ⟨3, ![4, 262144, 32]⟩
abbrev S262144x50 : Shape := ⟨2, ![262144, 50]⟩
abbrev S64x32 : Shape := ⟨2, ![64, 32]⟩
abbrev S64 : Shape := ⟨1, ![64]⟩
abbrev S4x100x64 : Shape := ⟨3, ![4, 100, 64]⟩
abbrev S4x100 : Shape := ⟨2, ![4, 100]⟩
abbrev S4x32x100 : Shape := ⟨3, ![4, 32, 100]⟩
abbrev S4x32 : Shape := ⟨2, ![4, 32]⟩
abbrev S200x192 : Shape := ⟨2, ![200, 192]⟩
abbrev S200x50 : Shape := ⟨2, ![200, 50]⟩
abbrev S200 : Shape := ⟨1, ![200]⟩
abbrev S100x50 : Shape := ⟨2, ![100, 50]⟩
abbrev S100 : Shape := ⟨1, ![100]⟩
abbrev S100x100 : Shape := ⟨2, ![100, 100]⟩
abbrev S64x100 : Shape := ⟨2, ![64, 100]⟩
abbrev S16x64 : Shape := ⟨2, ![16, 64]⟩
abbrev S16 : Shape := ⟨1, ![16]⟩
abbrev S1x16 : Shape := ⟨2, ![1, 16]⟩
abbrev S262144x324 : Shape := ⟨2, ![262144, 324]⟩
abbrev S2048x32 : Shape := ⟨2, ![2048, 32]⟩
abbrev S4x2048x32 : Shape := ⟨3, ![4, 2048, 32]⟩
abbrev S2048x50 : Shape := ⟨2, ![2048, 50]⟩
abbrev S2048x324 : Shape := ⟨2, ![2048, 324]⟩
abbrev S2048x64 : Shape := ⟨2, ![2048, 64]⟩
abbrev S1x64 : Shape := ⟨2, ![1, 64]⟩
abbrev S1x100x64 : Shape := ⟨3, ![1, 100, 64]⟩
abbrev S100x64 : Shape := ⟨2, ![100, 64]⟩
abbrev S1x100 : Shape := ⟨2, ![1, 100]⟩
abbrev S2048x100 : Shape := ⟨2, ![2048, 100]⟩
abbrev S1x32x100 : Shape := ⟨3, ![1, 32, 100]⟩
abbrev S32x100 : Shape := ⟨2, ![32, 100]⟩
abbrev S1x32 : Shape := ⟨2, ![1, 32]⟩
abbrev S32 : Shape := ⟨1, ![32]⟩
abbrev S2048x128 : Shape := ⟨2, ![2048, 128]⟩
abbrev S1x2048x32 : Shape := ⟨3, ![1, 2048, 32]⟩
abbrev S2048x192 : Shape := ⟨2, ![2048, 192]⟩
abbrev S2048x200 : Shape := ⟨2, ![2048, 200]⟩
abbrev S1x200 : Shape := ⟨2, ![1, 200]⟩
abbrev S2048x16 : Shape := ⟨2, ![2048, 16]⟩

abbrev nBuf : Space → Nat
  | .hbm => 27
  | .vmem => 32
  | .smem => 0
  | _ => 0

abbrev bufTy : (tb : Table) → Fin (tcTables nBuf tb) → BufTy
  | .hbm, ⟨0, _⟩ => ⟨S262144x32, .f32⟩
  | .hbm, ⟨1, _⟩ => ⟨S4x262144x32, .f32⟩
  | .hbm, ⟨2, _⟩ => ⟨S262144x50, .f32⟩
  | .hbm, ⟨3, _⟩ => ⟨S262144x50, .f32⟩
  | .hbm, ⟨4, _⟩ => ⟨S64x32, .f32⟩
  | .hbm, ⟨5, _⟩ => ⟨S64, .f32⟩
  | .hbm, ⟨6, _⟩ => ⟨S4x100x64, .f32⟩
  | .hbm, ⟨7, _⟩ => ⟨S4x100, .f32⟩
  | .hbm, ⟨8, _⟩ => ⟨S4x32x100, .f32⟩
  | .hbm, ⟨9, _⟩ => ⟨S4x32, .f32⟩
  | .hbm, ⟨10, _⟩ => ⟨S200x192, .f32⟩
  | .hbm, ⟨11, _⟩ => ⟨S200x50, .f32⟩
  | .hbm, ⟨12, _⟩ => ⟨S200, .f32⟩
  | .hbm, ⟨13, _⟩ => ⟨S200, .f32⟩
  | .hbm, ⟨14, _⟩ => ⟨S100x50, .f32⟩
  | .hbm, ⟨15, _⟩ => ⟨S100, .f32⟩
  | .hbm, ⟨16, _⟩ => ⟨S100x100, .f32⟩
  | .hbm, ⟨17, _⟩ => ⟨S100, .f32⟩
  | .hbm, ⟨18, _⟩ => ⟨S64x100, .f32⟩
  | .hbm, ⟨19, _⟩ => ⟨S64, .f32⟩
  | .hbm, ⟨20, _⟩ => ⟨S16x64, .f32⟩
  | .hbm, ⟨21, _⟩ => ⟨S16, .f32⟩
  | .hbm, ⟨22, _⟩ => ⟨S16x64, .f32⟩
  | .hbm, ⟨23, _⟩ => ⟨S16, .f32⟩
  | .hbm, ⟨24, _⟩ => ⟨S1x16, .f32⟩
  | .hbm, ⟨25, _⟩ => ⟨S1x16, .f32⟩
  | .hbm, ⟨26, _⟩ => ⟨S262144x324, .f32⟩
  | .local _ .vmem, ⟨0, _⟩ => ⟨S2048x32, .f32⟩
  | .local _ .vmem, ⟨1, _⟩ => ⟨S2048x32, .f32⟩
  | .local _ .vmem, ⟨2, _⟩ => ⟨S4x2048x32, .f32⟩
  | .local _ .vmem, ⟨3, _⟩ => ⟨S4x2048x32, .f32⟩
  | .local _ .vmem, ⟨4, _⟩ => ⟨S2048x50, .f32⟩
  | .local _ .vmem, ⟨5, _⟩ => ⟨S2048x50, .f32⟩
  | .local _ .vmem, ⟨6, _⟩ => ⟨S2048x50, .f32⟩
  | .local _ .vmem, ⟨7, _⟩ => ⟨S2048x50, .f32⟩
  | .local _ .vmem, ⟨8, _⟩ => ⟨S64x32, .f32⟩
  | .local _ .vmem, ⟨9, _⟩ => ⟨S64, .f32⟩
  | .local _ .vmem, ⟨10, _⟩ => ⟨S4x100x64, .f32⟩
  | .local _ .vmem, ⟨11, _⟩ => ⟨S4x100, .f32⟩
  | .local _ .vmem, ⟨12, _⟩ => ⟨S4x32x100, .f32⟩
  | .local _ .vmem, ⟨13, _⟩ => ⟨S4x32, .f32⟩
  | .local _ .vmem, ⟨14, _⟩ => ⟨S200x192, .f32⟩
  | .local _ .vmem, ⟨15, _⟩ => ⟨S200x50, .f32⟩
  | .local _ .vmem, ⟨16, _⟩ => ⟨S200, .f32⟩
  | .local _ .vmem, ⟨17, _⟩ => ⟨S200, .f32⟩
  | .local _ .vmem, ⟨18, _⟩ => ⟨S100x50, .f32⟩
  | .local _ .vmem, ⟨19, _⟩ => ⟨S100, .f32⟩
  | .local _ .vmem, ⟨20, _⟩ => ⟨S100x100, .f32⟩
  | .local _ .vmem, ⟨21, _⟩ => ⟨S100, .f32⟩
  | .local _ .vmem, ⟨22, _⟩ => ⟨S64x100, .f32⟩
  | .local _ .vmem, ⟨23, _⟩ => ⟨S64, .f32⟩
  | .local _ .vmem, ⟨24, _⟩ => ⟨S16x64, .f32⟩
  | .local _ .vmem, ⟨25, _⟩ => ⟨S16, .f32⟩
  | .local _ .vmem, ⟨26, _⟩ => ⟨S16x64, .f32⟩
  | .local _ .vmem, ⟨27, _⟩ => ⟨S16, .f32⟩
  | .local _ .vmem, ⟨28, _⟩ => ⟨S1x16, .f32⟩
  | .local _ .vmem, ⟨29, _⟩ => ⟨S1x16, .f32⟩
  | .local _ .vmem, ⟨30, _⟩ => ⟨S2048x324, .f32⟩
  | .local _ .vmem, ⟨31, _⟩ => ⟨S2048x324, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x100x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x32x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S100x50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S100x100 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S100 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x100 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2048x324 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  inb_S2048x32_S2048x32_0_0 : ∀ a, (![0, 0] : Fin 2 → Nat) a + S2048x32.size a ≤ S2048x32.size a
  h_S2048x32 : 0 < S2048x32.numel
  inb_S64x32_S64x32_0_0 : ∀ a, (![0, 0] : Fin 2 → Nat) a + S64x32.size a ≤ S64x32.size a
  h_S64x32 : 0 < S64x32.numel
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S2048x64 : S1x64.Broadcasts S2048x64
  inb_S4x100x64_S1x100x64_0_0_0 : ∀ a, (![0, 0, 0] : Fin 3 → Nat) a + S1x100x64.size a ≤ S4x100x64.size a
  h_S1x100x64 : 0 < S1x100x64.numel
  shapeCasts_S1x100x64_S100x64 : S1x100x64.ShapeCasts S100x64
  inb_S4x100_S1x100_0_0 : ∀ a, (![0, 0] : Fin 2 → Nat) a + S1x100.size a ≤ S4x100.size a
  h_S1x100 : 0 < S1x100.numel
  shapeCasts_S1x100_S100 : S1x100.ShapeCasts S100
  shapeCasts_S100_S1x100 : S100.ShapeCasts S1x100
  broadcasts_S1x100_S2048x100 : S1x100.Broadcasts S2048x100
  inb_S4x32x100_S1x32x100_0_0_0 : ∀ a, (![0, 0, 0] : Fin 3 → Nat) a + S1x32x100.size a ≤ S4x32x100.size a
  h_S1x32x100 : 0 < S1x32x100.numel
  shapeCasts_S1x32x100_S32x100 : S1x32x100.ShapeCasts S32x100
  inb_S4x32_S1x32_0_0 : ∀ a, (![0, 0] : Fin 2 → Nat) a + S1x32.size a ≤ S4x32.size a
  h_S1x32 : 0 < S1x32.numel
  shapeCasts_S1x32_S32 : S1x32.ShapeCasts S32
  shapeCasts_S32_S1x32 : S32.ShapeCasts S1x32
  broadcasts_S1x32_S2048x32 : S1x32.Broadcasts S2048x32
  inb_S4x100x64_S1x100x64_1_0_0 : ∀ a, (![1, 0, 0] : Fin 3 → Nat) a + S1x100x64.size a ≤ S4x100x64.size a
  inb_S4x100_S1x100_1_0 : ∀ a, (![1, 0] : Fin 2 → Nat) a + S1x100.size a ≤ S4x100.size a
  inb_S4x32x100_S1x32x100_1_0_0 : ∀ a, (![1, 0, 0] : Fin 3 → Nat) a + S1x32x100.size a ≤ S4x32x100.size a
  inb_S4x32_S1x32_1_0 : ∀ a, (![1, 0] : Fin 2 → Nat) a + S1x32.size a ≤ S4x32.size a
  inb_S4x100x64_S1x100x64_2_0_0 : ∀ a, (![2, 0, 0] : Fin 3 → Nat) a + S1x100x64.size a ≤ S4x100x64.size a
  inb_S4x100_S1x100_2_0 : ∀ a, (![2, 0] : Fin 2 → Nat) a + S1x100.size a ≤ S4x100.size a
  inb_S4x32x100_S1x32x100_2_0_0 : ∀ a, (![2, 0, 0] : Fin 3 → Nat) a + S1x32x100.size a ≤ S4x32x100.size a
  inb_S4x32_S1x32_2_0 : ∀ a, (![2, 0] : Fin 2 → Nat) a + S1x32.size a ≤ S4x32.size a
  inb_S4x100x64_S1x100x64_3_0_0 : ∀ a, (![3, 0, 0] : Fin 3 → Nat) a + S1x100x64.size a ≤ S4x100x64.size a
  inb_S4x100_S1x100_3_0 : ∀ a, (![3, 0] : Fin 2 → Nat) a + S1x100.size a ≤ S4x100.size a
  inb_S4x32x100_S1x32x100_3_0_0 : ∀ a, (![3, 0, 0] : Fin 3 → Nat) a + S1x32x100.size a ≤ S4x32x100.size a
  inb_S4x32_S1x32_3_0 : ∀ a, (![3, 0] : Fin 2 → Nat) a + S1x32.size a ≤ S4x32.size a
  concatenates_S2048x32_S2048x32_S2048x32_S2048x32_S2048x128_d1 : Shape.Concatenates [S2048x32, S2048x32, S2048x32, S2048x32] S2048x128 1
  inb_S4x2048x32_S1x2048x32_0_0_0 : ∀ a, (![0, 0, 0] : Fin 3 → Nat) a + S1x2048x32.size a ≤ S4x2048x32.size a
  h_S1x2048x32 : 0 < S1x2048x32.numel
  shapeCasts_S1x2048x32_S2048x32 : S1x2048x32.ShapeCasts S2048x32
  inb_S4x2048x32_S1x2048x32_1_0_0 : ∀ a, (![1, 0, 0] : Fin 3 → Nat) a + S1x2048x32.size a ≤ S4x2048x32.size a
  inb_S4x2048x32_S1x2048x32_2_0_0 : ∀ a, (![2, 0, 0] : Fin 3 → Nat) a + S1x2048x32.size a ≤ S4x2048x32.size a
  inb_S4x2048x32_S1x2048x32_3_0_0 : ∀ a, (![3, 0, 0] : Fin 3 → Nat) a + S1x2048x32.size a ≤ S4x2048x32.size a
  concatenates_S2048x64_S2048x128_S2048x192_d1 : Shape.Concatenates [S2048x64, S2048x128] S2048x192 1
  inb_S200x192_S200x192_0_0 : ∀ a, (![0, 0] : Fin 2 → Nat) a + S200x192.size a ≤ S200x192.size a
  h_S200x192 : 0 < S200x192.numel
  inb_S200_S200_0 : ∀ a, (![0] : Fin 1 → Nat) a + S200.size a ≤ S200.size a
  h_S200 : 0 < S200.numel
  shapeCasts_S200_S1x200 : S200.ShapeCasts S1x200
  broadcasts_S1x200_S2048x200 : S1x200.Broadcasts S2048x200
  inb_S2048x50_S2048x50_0_0 : ∀ a, (![0, 0] : Fin 2 → Nat) a + S2048x50.size a ≤ S2048x50.size a
  h_S2048x50 : 0 < S2048x50.numel
  inb_S200x50_S200x50_0_0 : ∀ a, (![0, 0] : Fin 2 → Nat) a + S200x50.size a ≤ S200x50.size a
  h_S200x50 : 0 < S200x50.numel
  slices_S2048x200_o0_0_S2048x50 : S2048x200.Slices ![0, 0] S2048x50
  slices_S2048x200_o0_50_S2048x50 : S2048x200.Slices ![0, 50] S2048x50
  slices_S2048x200_o0_100_S2048x50 : S2048x200.Slices ![0, 100] S2048x50
  slices_S2048x200_o0_150_S2048x50 : S2048x200.Slices ![0, 150] S2048x50
  inb_S100x50_S100x50_0_0 : ∀ a, (![0, 0] : Fin 2 → Nat) a + S100x50.size a ≤ S100x50.size a
  h_S100x50 : 0 < S100x50.numel
  inb_S100_S100_0 : ∀ a, (![0] : Fin 1 → Nat) a + S100.size a ≤ S100.size a
  h_S100 : 0 < S100.numel
  inb_S100x100_S100x100_0_0 : ∀ a, (![0, 0] : Fin 2 → Nat) a + S100x100.size a ≤ S100x100.size a
  h_S100x100 : 0 < S100x100.numel
  inb_S64x100_S64x100_0_0 : ∀ a, (![0, 0] : Fin 2 → Nat) a + S64x100.size a ≤ S64x100.size a
  h_S64x100 : 0 < S64x100.numel
  inb_S16x64_S16x64_0_0 : ∀ a, (![0, 0] : Fin 2 → Nat) a + S16x64.size a ≤ S16x64.size a
  h_S16x64 : 0 < S16x64.numel
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S1x16_S1x16_0_0 : ∀ a, (![0, 0] : Fin 2 → Nat) a + S1x16.size a ≤ S1x16.size a
  h_S1x16 : 0 < S1x16.numel
  concatenates_S2048x16_S2048x16_S2048x128_S2048x64_S2048x50_S2048x50_S2048x324_d1 : Shape.Concatenates [S2048x16, S2048x16, S2048x128, S2048x64, S2048x50, S2048x50] S2048x324 1
  inb_S2048x324_S2048x324_0_0 : ∀ a, (![0, 0] : Fin 2 → Nat) a + S2048x324.size a ≤ S2048x324.size a
  h_S2048x324 : 0 < S2048x324.numel
  dot_S2048x32_S64x32_S2048x64_1_1_0_0_n_n_wf : DotDims.WF S2048x32 S64x32 S2048x64 [1] [1] [0] [0] [] []
  dot_S2048x64_S100x64_S2048x100_1_1_0_0_n_n_wf : DotDims.WF S2048x64 S100x64 S2048x100 [1] [1] [0] [0] [] []
  dot_S2048x100_S32x100_S2048x32_1_1_0_0_n_n_wf : DotDims.WF S2048x100 S32x100 S2048x32 [1] [1] [0] [0] [] []
  dot_S2048x192_S200x192_S2048x200_1_1_0_0_n_n_wf : DotDims.WF S2048x192 S200x192 S2048x200 [1] [1] [0] [0] [] []
  dot_S2048x50_S200x50_S2048x200_1_1_0_0_n_n_wf : DotDims.WF S2048x50 S200x50 S2048x200 [1] [1] [0] [0] [] []
  dot_S2048x50_S100x50_S2048x100_1_1_0_0_n_n_wf : DotDims.WF S2048x50 S100x50 S2048x100 [1] [1] [0] [0] [] []
  dot_S2048x100_S100x100_S2048x100_1_1_0_0_n_n_wf : DotDims.WF S2048x100 S100x100 S2048x100 [1] [1] [0] [0] [] []
  dot_S2048x100_S64x100_S2048x64_1_1_0_0_n_n_wf : DotDims.WF S2048x100 S64x100 S2048x64 [1] [1] [0] [0] [] []
  dot_S2048x64_S16x64_S2048x16_1_1_0_0_n_n_wf : DotDims.WF S2048x64 S16x64 S2048x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S262144x32.size a
  hwx0_0 : ∀ i : grid0.Coords, EltTy.bits .f32 = 32 ∨ (Rect.block (s := S262144x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x32.size a ≤ S4x262144x32.size a
  hwx0_1 : ∀ i : grid0.Coords, EltTy.bits .f32 = 32 ∨ (Rect.block (s := S4x262144x32) S4x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x50.size a ≤ S262144x50.size a
  hwx0_2 : ∀ i : grid0.Coords, EltTy.bits .f32 = 32 ∨ (Rect.block (s := S262144x50) S2048x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x50.size a ≤ S262144x50.size a
  hwx0_3 : ∀ i : grid0.Coords, EltTy.bits .f32 = 32 ∨ (Rect.block (s := S262144x50) S2048x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x100x64.size a ≤ S4x100x64.size a
  hwx0_6 : ∀ i : grid0.Coords, EltTy.bits .f32 = 32 ∨ (Rect.block (s := S4x100x64) S4x100x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x100.size a ≤ S4x100.size a
  hwx0_7 : ∀ i : grid0.Coords, EltTy.bits .f32 = 32 ∨ (Rect.block (s := S4x100) S4x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x32x100.size a ≤ S4x32x100.size a
  hwx0_8 : ∀ i : grid0.Coords, EltTy.bits .f32 = 32 ∨ (Rect.block (s := S4x32x100) S4x32x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x32.size a ≤ S4x32.size a
  hwx0_9 : ∀ i : grid0.Coords, EltTy.bits .f32 = 32 ∨ (Rect.block (s := S4x32) S4x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x192.size a ≤ S200x192.size a
  hwx0_10 : ∀ i : grid0.Coords, EltTy.bits .f32 = 32 ∨ (Rect.block (s := S200x192) S200x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x50.size a ≤ S200x50.size a
  hwx0_11 : ∀ i : grid0.Coords, EltTy.bits .f32 = 32 ∨ (Rect.block (s := S200x50) S200x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200.size a ≤ S200.size a
  hwx0_12 : ∀ i : grid0.Coords, EltTy.bits .f32 = 32 ∨ (Rect.block (s := S200) S200.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S200.size a ≤ S200.size a
  hwx0_13 : ∀ i : grid0.Coords, EltTy.bits .f32 = 32 ∨ (Rect.block (s := S200) S200.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S100x50.size a ≤ S100x50.size a
  hwx0_14 : ∀ i : grid0.Coords, EltTy.bits .f32 = 32 ∨ (Rect.block (s := S100x50) S100x50.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S100.size a ≤ S100.size a
  hwx0_15 : ∀ i : grid0.Coords, EltTy.bits .f32 = 32 ∨ (Rect.block (s := S100) S100.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S100x100.size a ≤ S100x100.size a
  hwx0_16 : ∀ i : grid0.Coords, EltTy.bits .f32 = 32 ∨ (Rect.block (s := S100x100) S100x100.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S100.size a ≤ S100.size a
  hwx0_17 : ∀ i : grid0.Coords, EltTy.bits .f32 = 32 ∨ (Rect.block (s := S100) S100.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x100.size a ≤ S64x100.size a
  hwx0_18 : ∀ i : grid0.Coords, EltTy.bits .f32 = 32 ∨ (Rect.block (s := S64x100) S64x100.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S16x64.size a ≤ S16x64.size a
  hwx0_20 : ∀ i : grid0.Coords, EltTy.bits .f32 = 32 ∨ (Rect.block (s := S16x64) S16x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S16.size a ≤ S16.size a
  hwx0_21 : ∀ i : grid0.Coords, EltTy.bits .f32 = 32 ∨ (Rect.block (s := S16) S16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S16x64.size a ≤ S16x64.size a
  hwx0_22 : ∀ i : grid0.Coords, EltTy.bits .f32 = 32 ∨ (Rect.block (s := S16x64) S16x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S16.size a ≤ S16.size a
  hwx0_23 : ∀ i : grid0.Coords, EltTy.bits .f32 = 32 ∨ (Rect.block (s := S16) S16.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x16.size a ≤ S1x16.size a
  hwx0_24 : ∀ i : grid0.Coords, EltTy.bits .f32 = 32 ∨ (Rect.block (s := S1x16) S1x16.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x16.size a ≤ S1x16.size a
  hwx0_25 : ∀ i : grid0.Coords, EltTy.bits .f32 = 32 ∨ (Rect.block (s := S1x16) S1x16.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S2048x324.size a ≤ S262144x324.size a
  hwx0_26 : ∀ i : grid0.Coords, EltTy.bits .f32 = 32 ∨ (Rect.block (s := S262144x324) S2048x324.size (cc0_transform_26 i) (hinb0_26 i)).WholeWords (EltTy.packing .f32)

variable [Facts₀]

def dot_S2048x32_S64x32_S2048x64_1_1_0_0_n_n : DotDims S2048x32 S64x32 S2048x64 where
  lhsContracting := [1]
  rhsContracting := [1]
  lhsNonContracting := [0]
  rhsNonContracting := [0]
  lhsBatch := []
  rhsBatch := []
  wf := dot_S2048x32_S64x32_S2048x64_1_1_0_0_n_n_wf
def dot_S2048x64_S100x64_S2048x100_1_1_0_0_n_n : DotDims S2048x64 S100x64 S2048x100 where
  lhsContracting := [1]
  rhsContracting := [1]
  lhsNonContracting := [0]
  rhsNonContracting := [0]
  lhsBatch := []
  rhsBatch := []
  wf := dot_S2048x64_S100x64_S2048x100_1_1_0_0_n_n_wf
def dot_S2048x100_S32x100_S2048x32_1_1_0_0_n_n : DotDims S2048x100 S32x100 S2048x32 where
  lhsContracting := [1]
  rhsContracting := [1]
  lhsNonContracting := [0]
  rhsNonContracting := [0]
  lhsBatch := []
  rhsBatch := []
  wf := dot_S2048x100_S32x100_S2048x32_1_1_0_0_n_n_wf
def dot_S2048x192_S200x192_S2048x200_1_1_0_0_n_n : DotDims S2048x192 S200x192 S2048x200 where
  lhsContracting := [1]
  rhsContracting := [1]
  lhsNonContracting := [0]
  rhsNonContracting := [0]
  lhsBatch := []
  rhsBatch := []
  wf := dot_S2048x192_S200x192_S2048x200_1_1_0_0_n_n_wf
def dot_S2048x50_S200x50_S2048x200_1_1_0_0_n_n : DotDims S2048x50 S200x50 S2048x200 where
  lhsContracting := [1]
  rhsContracting := [1]
  lhsNonContracting := [0]
  rhsNonContracting := [0]
  lhsBatch := []
  rhsBatch := []
  wf := dot_S2048x50_S200x50_S2048x200_1_1_0_0_n_n_wf
def dot_S2048x50_S100x50_S2048x100_1_1_0_0_n_n : DotDims S2048x50 S100x50 S2048x100 where
  lhsContracting := [1]
  rhsContracting := [1]
  lhsNonContracting := [0]
  rhsNonContracting := [0]
  lhsBatch := []
  rhsBatch := []
  wf := dot_S2048x50_S100x50_S2048x100_1_1_0_0_n_n_wf
def dot_S2048x100_S100x100_S2048x100_1_1_0_0_n_n : DotDims S2048x100 S100x100 S2048x100 where
  lhsContracting := [1]
  rhsContracting := [1]
  lhsNonContracting := [0]
  rhsNonContracting := [0]
  lhsBatch := []
  rhsBatch := []
  wf := dot_S2048x100_S100x100_S2048x100_1_1_0_0_n_n_wf
def dot_S2048x100_S64x100_S2048x64_1_1_0_0_n_n : DotDims S2048x100 S64x100 S2048x64 where
  lhsContracting := [1]
  rhsContracting := [1]
  lhsNonContracting := [0]
  rhsNonContracting := [0]
  lhsBatch := []
  rhsBatch := []
  wf := dot_S2048x100_S64x100_S2048x64_1_1_0_0_n_n_wf
def dot_S2048x64_S16x64_S2048x16_1_1_0_0_n_n : DotDims S2048x64 S16x64 S2048x16 where
  lhsContracting := [1]
  rhsContracting := [1]
  lhsNonContracting := [0]
  rhsNonContracting := [0]
  lhsBatch := []
  rhsBatch := []
  wf := dot_S2048x64_S16x64_S2048x16_1_1_0_0_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x100x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x32x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S200x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S200x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S100x50.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S100.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S100x100.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S100.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64x100.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S16x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S16x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S16.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S1x16.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S1x16.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v0) S2048x324.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S262144x32 : Shape := ⟨2, ![262144, 32]⟩
abbrev S4x262144x32 : Shape := ⟨3, ![4, 262144, 32]⟩
abbrev S262144x50 : Shape := ⟨2, ![262144, 50]⟩
abbrev S64x32 : Shape := ⟨2, ![64, 32]⟩
abbrev S64 : Shape := ⟨1, ![64]⟩
abbrev S4x100x64 : Shape := ⟨3, ![4, 100, 64]⟩
abbrev S4x100 : Shape := ⟨2, ![4, 100]⟩
abbrev S4x32x100 : Shape := ⟨3, ![4, 32, 100]⟩
abbrev S4x32 : Shape := ⟨2, ![4, 32]⟩
abbrev S200x192 : Shape := ⟨2, ![200, 192]⟩
abbrev S200x50 : Shape := ⟨2, ![200, 50]⟩
abbrev S200 : Shape := ⟨1, ![200]⟩
abbrev S100x50 : Shape := ⟨2, ![100, 50]⟩
abbrev S100 : Shape := ⟨1, ![100]⟩
abbrev S100x100 : Shape := ⟨2, ![100, 100]⟩
abbrev S64x100 : Shape := ⟨2, ![64, 100]⟩
abbrev S16x64 : Shape := ⟨2, ![16, 64]⟩
abbrev S16 : Shape := ⟨1, ![16]⟩
abbrev S1x16 : Shape := ⟨2, ![1, 16]⟩
abbrev S32x64 : Shape := ⟨2, ![32, 64]⟩
abbrev S262144x64 : Shape := ⟨2, ![262144, 64]⟩
abbrev S1x64 : Shape := ⟨2, ![1, 64]⟩
abbrev S_ : Shape := ⟨0, ![]⟩
abbrev S4x100x262144 : Shape := ⟨3, ![4, 100, 262144]⟩
abbrev S4x262144x100 : Shape := ⟨3, ![4, 262144, 100]⟩
abbrev S4x1x100 : Shape := ⟨3, ![4, 1, 100]⟩
abbrev S4x1x32 : Shape := ⟨3, ![4, 1, 32]⟩
abbrev S262144x4x32 : Shape := ⟨3, ![262144, 4, 32]⟩
abbrev S262144x128 : Shape := ⟨2, ![262144, 128]⟩
abbrev S262144x192 : Shape := ⟨2, ![262144, 192]⟩
abbrev S192x200 : Shape := ⟨2, ![192, 200]⟩
abbrev S262144x200 : Shape := ⟨2, ![262144, 200]⟩
abbrev S1x200 : Shape := ⟨2, ![1, 200]⟩
abbrev S50x200 : Shape := ⟨2, ![50, 200]⟩
abbrev S50x100 : Shape := ⟨2, ![50, 100]⟩
abbrev S262144x100 : Shape := ⟨2, ![262144, 100]⟩
abbrev S1x100 : Shape := ⟨2, ![1, 100]⟩
abbrev S100x64 : Shape := ⟨2, ![100, 64]⟩
abbrev S64x16 : Shape := ⟨2, ![64, 16]⟩
abbrev S262144x16 : Shape := ⟨2, ![262144, 16]⟩
abbrev S262144x324 : Shape := ⟨2, ![262144, 324]⟩

abbrev nBuf : Space → Nat
  | .hbm => 165
  | .vmem => 0
  | .smem => 0
  | _ => 0

abbrev hbmTy0_0 (i : Nat) : BufTy := match i % 128 with
  | 0 => ⟨S262144x32, .f32⟩
  | 1 => ⟨S4x262144x32, .f32⟩
  | 2 => ⟨S262144x50, .f32⟩
  | 3 => ⟨S262144x50, .f32⟩
  | 4 => ⟨S64x32, .f32⟩
  | 5 => ⟨S64, .f32⟩
  | 6 => ⟨S4x100x64, .f32⟩
  | 7 => ⟨S4x100, .f32⟩
  | 8 => ⟨S4x32x100, .f32⟩
  | 9 => ⟨S4x32, .f32⟩
  | 10 => ⟨S200x192, .f32⟩
  | 11 => ⟨S200x50, .f32⟩
  | 12 => ⟨S200, .f32⟩
  | 13 => ⟨S200, .f32⟩
  | 14 => ⟨S100x50, .f32⟩
  | 15 => ⟨S100, .f32⟩
  | 16 => ⟨S100x100, .f32⟩
  | 17 => ⟨S100, .f32⟩
  | 18 => ⟨S64x100, .f32⟩
  | 19 => ⟨S64, .f32⟩
  | 20 => ⟨S16x64, .f32⟩
  | 21 => ⟨S16, .f32⟩
  | 22 => ⟨S16x64, .f32⟩
  | 23 => ⟨S16, .f32⟩
  | 24 => ⟨S1x16, .f32⟩
  | 25 => ⟨S1x16, .f32⟩
  | 26 => ⟨S32x64, .f32⟩
  | 27 => ⟨S262144x64, .f32⟩
  | 28 => ⟨S1x64, .f32⟩
  | 29 => ⟨S262144x64, .f32⟩
  | 30 => ⟨S262144x64, .f32⟩
  | 31 => ⟨S_, .f32⟩
  | 32 => ⟨S262144x64, .f32⟩
  | 33 => ⟨S262144x64, .f32⟩
  | 34 => ⟨S4x100x262144, .f32⟩
  | 35 => ⟨S4x262144x100, .f32⟩
  | 36 => ⟨S4x1x100, .f32⟩
  | 37 => ⟨S4x262144x100, .f32⟩
  | 38 => ⟨S4x262144x100, .f32⟩
  | 39 => ⟨S_, .f32⟩
  | 40 => ⟨S4x262144x100, .f32⟩
  | 41 => ⟨S4x262144x100, .f32⟩
  | 42 => ⟨S4x262144x32, .f32⟩
  | 43 => ⟨S4x1x32, .f32⟩
  | 44 => ⟨S4x262144x32, .f32⟩
  | 45 => ⟨S4x262144x32, .f32⟩
  | 46 => ⟨S262144x4x32, .f32⟩
  | 47 => ⟨S262144x128, .f32⟩
  | 48 => ⟨S262144x192, .f32⟩
  | 49 => ⟨S192x200, .f32⟩
  | 50 => ⟨S262144x200, .f32⟩
  | 51 => ⟨S1x200, .f32⟩
  | 52 => ⟨S262144x200, .f32⟩
  | 53 => ⟨S262144x200, .f32⟩
  | 54 => ⟨S50x200, .f32⟩
  | 55 => ⟨S262144x200, .f32⟩
  | 56 => ⟨S262144x200, .f32⟩
  | 57 => ⟨S1x200, .f32⟩
  | 58 => ⟨S262144x200, .f32⟩
  | 59 => ⟨S262144x200, .f32⟩
  | 60 => ⟨S262144x50, .f32⟩
  | 61 => ⟨S262144x50, .f32⟩
  | 62 => ⟨S262144x50, .f32⟩
  | 63 => ⟨S262144x50, .f32⟩
  | 64 => ⟨S262144x50, .f32⟩
  | 65 => ⟨S262144x50, .f32⟩
  | 66 => ⟨S_, .f32⟩
  | 67 => ⟨S262144x50, .f32⟩
  | 68 => ⟨S262144x50, .f32⟩
  | 69 => ⟨S_, .f32⟩
  | 70 => ⟨S262144x50, .f32⟩
  | 71 => ⟨S262144x50, .f32⟩
  | 72 => ⟨S262144x50, .f32⟩
  | 73 => ⟨S262144x50, .f32⟩
  | 74 => ⟨S262144x50, .f32⟩
  | 75 => ⟨S_, .f32⟩
  | 76 => ⟨S262144x50, .f32⟩
  | 77 => ⟨S262144x50, .f32⟩
  | 78 => ⟨S_, .f32⟩
  | 79 => ⟨S262144x50, .f32⟩
  | 80 => ⟨S262144x50, .f32⟩
  | 81 => ⟨S262144x50, .f32⟩
  | 82 => ⟨S262144x50, .f32⟩
  | 83 => ⟨S262144x50, .f32⟩
  | 84 => ⟨S262144x50, .f32⟩
  | 85 => ⟨S262144x50, .f32⟩
  | 86 => ⟨S_, .f32⟩
  | 87 => ⟨S262144x50, .f32⟩
  | 88 => ⟨S262144x50, .f32⟩
  | 89 => ⟨S_, .f32⟩
  | 90 => ⟨S262144x50, .f32⟩
  | 91 => ⟨S262144x50, .f32⟩
  | 92 => ⟨S262144x50, .f32⟩
  | 93 => ⟨S262144x50, .f32⟩
  | 94 => ⟨S50x100, .f32⟩
  | 95 => ⟨S262144x100, .f32⟩
  | 96 => ⟨S1x100, .f32⟩
  | 97 => ⟨S262144x100, .f32⟩
  | 98 => ⟨S262144x100, .f32⟩
  | 99 => ⟨S_, .f32⟩
  | 100 => ⟨S262144x100, .f32⟩
  | 101 => ⟨S262144x100, .f32⟩
  | 102 => ⟨S100x100, .f32⟩
  | 103 => ⟨S262144x100, .f32⟩
  | 104 => ⟨S1x100, .f32⟩
  | 105 => ⟨S262144x100, .f32⟩
  | 106 => ⟨S262144x100, .f32⟩
  | 107 => ⟨S_, .f32⟩
  | 108 => ⟨S262144x100, .f32⟩
  | 109 => ⟨S262144x100, .f32⟩
  | 110 => ⟨S100x64, .f32⟩
  | 111 => ⟨S262144x64, .f32⟩
  | 112 => ⟨S1x64, .f32⟩
  | 113 => ⟨S262144x64, .f32⟩
  | 114 => ⟨S262144x64, .f32⟩
  | 115 => ⟨S64x16, .f32⟩
  | 116 => ⟨S262144x16, .f32⟩
  | 117 => ⟨S1x16, .f32⟩
  | 118 => ⟨S262144x16, .f32⟩
  | 119 => ⟨S262144x16, .f32⟩
  | 120 => ⟨S64x16, .f32⟩
  | 121 => ⟨S262144x16, .f32⟩
  | 122 => ⟨S1x16, .f32⟩
  | 123 => ⟨S262144x16, .f32⟩
  | 124 => ⟨S262144x16, .f32⟩
  | 125 => ⟨S262144x16, .f32⟩
  | 126 => ⟨S262144x16, .f32⟩
  | 127 => ⟨S_, .f32⟩
  | _ => ⟨S262144x32, .f32⟩

abbrev hbmTy0_1 (i : Nat) : BufTy := match i % 128 with
  | 0 => ⟨S262144x16, .f32⟩
  | 1 => ⟨S262144x16, .f32⟩
  | 2 => ⟨S262144x16, .f32⟩
  | 3 => ⟨S262144x16, .f32⟩
  | 4 => ⟨S262144x16, .i1⟩
  | 5 => ⟨S262144x16, .f32⟩
  | 6 => ⟨S262144x16, .f32⟩
  | 7 => ⟨S262144x16, .f32⟩
  | 8 => ⟨S262144x16, .f32⟩
  | 9 => ⟨S262144x16, .f32⟩
  | 10 => ⟨S262144x16, .f32⟩
  | 11 => ⟨S262144x16, .f32⟩
  | 12 => ⟨S262144x16, .f32⟩
  | 13 => ⟨S262144x16, .f32⟩
  | 14 => ⟨S262144x16, .f32⟩
  | 15 => ⟨S262144x16, .f32⟩
  | 16 => ⟨S262144x16, .f32⟩
  | 17 => ⟨S_, .f32⟩
  | 18 => ⟨S262144x16, .f32⟩
  | 19 => ⟨S262144x16, .f32⟩
  | 20 => ⟨S262144x16, .f32⟩
  | 21 => ⟨S262144x16, .f32⟩
  | 22 => ⟨S262144x16, .i1⟩
  | 23 => ⟨S262144x16, .f32⟩
  | 24 => ⟨S262144x16, .f32⟩
  | 25 => ⟨S262144x16, .f32⟩
  | 26 => ⟨S262144x16, .f32⟩
  | 27 => ⟨S262144x16, .f32⟩
  | 28 => ⟨S262144x16, .f32⟩
  | 29 => ⟨S262144x16, .f32⟩
  | 30 => ⟨S262144x16, .f32⟩
  | 31 => ⟨S262144x16, .f32⟩
  | 32 => ⟨S262144x16, .f32⟩
  | 33 => ⟨S262144x16, .f32⟩
  | 34 => ⟨S262144x4x32, .f32⟩
  | 35 => ⟨S262144x128, .f32⟩
  | 36 => ⟨S262144x324, .f32⟩
  | _ => ⟨S262144x32, .f32⟩

abbrev hbmTy (i : Nat) : BufTy := match i / 128 with
  | 0 => hbmTy0_0 i
  | 1 => hbmTy0_1 i
  | _ => ⟨S262144x32, .f32⟩

abbrev bufTy : (tb : Table) → Fin (tcTables nBuf tb) → BufTy
  | .hbm, ⟨i, _⟩ => hbmTy i
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_cst : Ref sig .tc := ⟨.hbm, 39, rfl⟩
abbrev main_call1_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst : Ref sig .tc := ⟨.hbm, 66, rfl⟩
abbrev main_v36 : Ref sig .tc := ⟨.hbm, 67, rfl⟩
abbrev main_v37 : Ref sig .tc := ⟨.hbm, 68, rfl⟩
abbrev main_cst_0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_1 : Ref sig .tc := ⟨.hbm, 75, rfl⟩
abbrev main_v43 : Ref sig .tc := ⟨.hbm, 76, rfl⟩
abbrev main_v44 : Ref sig .tc := ⟨.hbm, 77, rfl⟩
abbrev main_cst_2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_3 : Ref sig .tc := ⟨.hbm, 86, rfl⟩
abbrev main_v52 : Ref sig .tc := ⟨.hbm, 87, rfl⟩
abbrev main_v53 : Ref sig .tc := ⟨.hbm, 88, rfl⟩
abbrev main_cst_4 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_cst : Ref sig .tc := ⟨.hbm, 107, rfl⟩
abbrev main_call3_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call4_cst : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_call5_cst : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  transposes_S4x100x262144_S4x262144x100_0_2_1 : S4x100x262144.Transposes [0, 2, 1] S4x262144x100
  bcast_S4x100_S4x1x100_0_2 : S4x100.BroadcastsInDim S4x1x100 (![0, 2] : Fin 2 → Fin S4x1x100.rank)
  bcast_S4x1x100_S4x262144x100_0_1_2 : S4x1x100.BroadcastsInDim S4x262144x100 (![0, 1, 2] : Fin 3 → Fin S4x262144x100.rank)
  bcast_S_S4x262144x100 : S_.BroadcastsInDim S4x262144x100 (![] : Fin 0 → Fin S4x262144x100.rank)
  bcast_S4x32_S4x1x32_0_2 : S4x32.BroadcastsInDim S4x1x32 (![0, 2] : Fin 2 → Fin S4x1x32.rank)
  bcast_S4x1x32_S4x262144x32_0_1_2 : S4x1x32.BroadcastsInDim S4x262144x32 (![0, 1, 2] : Fin 3 → Fin S4x262144x32.rank)
  transposes_S4x262144x32_S262144x4x32_1_0_2 : S4x262144x32.Transposes [1, 0, 2] S262144x4x32
  shapeCasts_S262144x4x32_S262144x128 : S262144x4x32.ShapeCasts S262144x128
  concatenates_S262144x64_S262144x128_S262144x192_d1 : Shape.Concatenates [S262144x64, S262144x128] S262144x192 1
  transposes_S200x192_S192x200_1_0 : S200x192.Transposes [1, 0] S192x200
  bcast_S200_S1x200_1 : S200.BroadcastsInDim S1x200 (![1] : Fin 1 → Fin S1x200.rank)
  bcast_S1x200_S262144x200_0_1 : S1x200.BroadcastsInDim S262144x200 (![0, 1] : Fin 2 → Fin S262144x200.rank)
  transposes_S200x50_S50x200_1_0 : S200x50.Transposes [1, 0] S50x200
  slices_S262144x200_S262144x50_0_0 : S262144x200.Slices ![0, 0] S262144x50
  slices_S262144x200_S262144x50_0_50 : S262144x200.Slices ![0, 50] S262144x50
  slices_S262144x200_S262144x50_0_100 : S262144x200.Slices ![0, 100] S262144x50
  slices_S262144x200_S262144x50_0_150 : S262144x200.Slices ![0, 150] S262144x50
  bcast_S_S262144x50 : S_.BroadcastsInDim S262144x50 (![] : Fin 0 → Fin S262144x50.rank)
  transposes_S100x50_S50x100_1_0 : S100x50.Transposes [1, 0] S50x100
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  transposes_S100x100_S100x100_1_0 : S100x100.Transposes [1, 0] S100x100
  transposes_S64x100_S100x64_1_0 : S64x100.Transposes [1, 0] S100x64
  transposes_S16x64_S64x16_1_0 : S16x64.Transposes [1, 0] S64x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  concatenates_S262144x16_S262144x16_S262144x128_S262144x64_S262144x50_S262144x50_S262144x324_d1 : Shape.Concatenates [S262144x16, S262144x16, S262144x128, S262144x64, S262144x50, S262144x50] S262144x324 1
  dot_S262144x32_S32x64_S262144x64_1_0_0_1_n_n_wf : DotDims.WF S262144x32 S32x64 S262144x64 [1] [0] [0] [1] [] []
  dot_S4x100x64_S262144x64_S4x100x262144_2_1_01_0_n_n_wf : DotDims.WF S4x100x64 S262144x64 S4x100x262144 [2] [1] [0, 1] [0] [] []
  dot_S4x262144x100_S4x32x100_S4x262144x32_2_2_1_1_0_0_wf : DotDims.WF S4x262144x100 S4x32x100 S4x262144x32 [2] [2] [1] [1] [0] [0]
  dot_S262144x192_S192x200_S262144x200_1_0_0_1_n_n_wf : DotDims.WF S262144x192 S192x200 S262144x200 [1] [0] [0] [1] [] []
  dot_S262144x50_S50x200_S262144x200_1_0_0_1_n_n_wf : DotDims.WF S262144x50 S50x200 S262144x200 [1] [0] [0] [1] [] []
  dot_S262144x50_S50x100_S262144x100_1_0_0_1_n_n_wf : DotDims.WF S262144x50 S50x100 S262144x100 [1] [0] [0] [1] [] []
  dot_S262144x100_S100x100_S262144x100_1_0_0_1_n_n_wf : DotDims.WF S262144x100 S100x100 S262144x100 [1] [0] [0] [1] [] []
  dot_S262144x100_S100x64_S262144x64_1_0_0_1_n_n_wf : DotDims.WF S262144x100 S100x64 S262144x64 [1] [0] [0] [1] [] []
  dot_S262144x64_S64x16_S262144x16_1_0_0_1_n_n_wf : DotDims.WF S262144x64 S64x16 S262144x16 [1] [0] [0] [1] [] []

variable [Facts₀]

def dot_S262144x32_S32x64_S262144x64_1_0_0_1_n_n : DotDims S262144x32 S32x64 S262144x64 where
  lhsContracting := [1]
  rhsContracting := [0]
  lhsNonContracting := [0]
  rhsNonContracting := [1]
  lhsBatch := []
  rhsBatch := []
  wf := dot_S262144x32_S32x64_S262144x64_1_0_0_1_n_n_wf
def dot_S4x100x64_S262144x64_S4x100x262144_2_1_01_0_n_n : DotDims S4x100x64 S262144x64 S4x100x262144 where
  lhsContracting := [2]
  rhsContracting := [1]
  lhsNonContracting := [0, 1]
  rhsNonContracting := [0]
  lhsBatch := []
  rhsBatch := []
  wf := dot_S4x100x64_S262144x64_S4x100x262144_2_1_01_0_n_n_wf
def dot_S4x262144x100_S4x32x100_S4x262144x32_2_2_1_1_0_0 : DotDims S4x262144x100 S4x32x100 S4x262144x32 where
  lhsContracting := [2]
  rhsContracting := [2]
  lhsNonContracting := [1]
  rhsNonContracting := [1]
  lhsBatch := [0]
  rhsBatch := [0]
  wf := dot_S4x262144x100_S4x32x100_S4x262144x32_2_2_1_1_0_0_wf
def dot_S262144x192_S192x200_S262144x200_1_0_0_1_n_n : DotDims S262144x192 S192x200 S262144x200 where
  lhsContracting := [1]
  rhsContracting := [0]
  lhsNonContracting := [0]
  rhsNonContracting := [1]
  lhsBatch := []
  rhsBatch := []
  wf := dot_S262144x192_S192x200_S262144x200_1_0_0_1_n_n_wf
def dot_S262144x50_S50x200_S262144x200_1_0_0_1_n_n : DotDims S262144x50 S50x200 S262144x200 where
  lhsContracting := [1]
  rhsContracting := [0]
  lhsNonContracting := [0]
  rhsNonContracting := [1]
  lhsBatch := []
  rhsBatch := []
  wf := dot_S262144x50_S50x200_S262144x200_1_0_0_1_n_n_wf
def dot_S262144x50_S50x100_S262144x100_1_0_0_1_n_n : DotDims S262144x50 S50x100 S262144x100 where
  lhsContracting := [1]
  rhsContracting := [0]
  lhsNonContracting := [0]
  rhsNonContracting := [1]
  lhsBatch := []
  rhsBatch := []
  wf := dot_S262144x50_S50x100_S262144x100_1_0_0_1_n_n_wf
def dot_S262144x100_S100x100_S262144x100_1_0_0_1_n_n : DotDims S262144x100 S100x100 S262144x100 where
  lhsContracting := [1]
  rhsContracting := [0]
  lhsNonContracting := [0]
  rhsNonContracting := [1]
  lhsBatch := []
  rhsBatch := []
  wf := dot_S262144x100_S100x100_S262144x100_1_0_0_1_n_n_wf
def dot_S262144x100_S100x64_S262144x64_1_0_0_1_n_n : DotDims S262144x100 S100x64 S262144x64 where
  lhsContracting := [1]
  rhsContracting := [0]
  lhsNonContracting := [0]
  rhsNonContracting := [1]
  lhsBatch := []
  rhsBatch := []
  wf := dot_S262144x100_S100x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf

class Facts : Prop extends Facts₀ where

variable [Facts]
-- ==== Proof.Spec.lean ====
/-
  One row of the node update, as a function of that row's inputs and the weights.

  Every output row depends on the same row of the four batched inputs only.  For a row with observation o (32 entries),
  incoming messages mi (4 ports × 32), recurrent state h and cell c (50 each):
    x      = relu (W_in o + b_in)                                     (64)
    op p   = W2[p] relu (W1[p] x + b1[p]) + b2[p]                     (4 × 32, the outgoing messages)
    hm     = x followed by the four incoming messages                 (192)
    gates  = (W_ih hm + b_ih) + (W_hh h + b_hh)                       (200 = four groups of 50: i, f, g, o)
    cnew   = σ(f) · c + σ(i) · tanh g,   hnew = σ(o) · tanh cnew
    h2     = W_u3 relu (W_u2 relu (W_u1 hnew + b_u1) + b_u2) + b_u3   (64)
    mu     = W_mu h2 + b_mu,   lv = W_var h2 + b_var                   (16 each)
    var    = exp (minlv + softplus ((maxlv − softplus (maxlv − lv)) − minlv))
  and the output row lays mu, var, the four outgoing messages, h2, hnew, cnew side by side (324 entries).
  All arithmetic is that of the extended reals; a dense layer W a + b is written entry by entry as
  (∑ k, a k · W (j, k)) + b j, the weight to the right as both programs multiply (up to the order of the factors).
-/
import Idealize.ShloMosaic.PureOps
import Idealize.ShloMosaic.Lib.ValueIdx
import Idealize.ShloMosaic.PureOps.Ideal.Laws

noncomputable section

namespace Cert.Gnn

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The weights, in the order the programs take them. -/
structure Weights where
  Win : Arr2 64 32
  bin : Arr1 64
  W1 : Arr3 4 100 64
  b1 : Arr2 4 100
  W2 : Arr3 4 32 100
  b2 : Arr2 4 32
  Wih : Arr2 200 192
  Whh : Arr2 200 50
  bih : Arr1 200
  bhh : Arr1 200
  Wu1 : Arr2 100 50
  bu1 : Arr1 100
  Wu2 : Arr2 100 100
  bu2 : Arr1 100
  Wu3 : Arr2 64 100
  bu3 : Arr1 64
  Wmu : Arr2 16 64
  bmu : Arr1 16
  Wvar : Arr2 16 64
  bvar : Arr1 16
  maxlv : Arr2 1 16
  minlv : Arr2 1 16

/-- The float zero and one, as the words both programs write. -/
def Z : EReal := Ideal.ofBits .f32 0x00000000#32
def One : EReal := Ideal.ofBits .f32 0x3F800000#32

theorem Z_eq : Z = 0 := Ideal.ofBits_zero_f32
theorem One_eq : One = 1 := by unfold One; simp [Ideal.ofBits, Ideal.ieee, -EReal.coe_mul]; norm_num

/-- A dense layer at output entry j: (∑ k, a k · W (j, k)) + b j. -/
def dense {K N : Nat} (a : Fin K → EReal) (Wt : Arr2 N K) (b : Arr1 N) (j : Fin N) : EReal :=
  (∑ k : Fin K, a k * Wt (ix2 j k)) + b (ix1 j)

/-- The logistic function, and the form the reference spells: 1 / (1 + e^(−v)) over the word for one. -/
def sig (v : EReal) : EReal := Ideal.logistic v

theorem sig_spelt (v : EReal) : Ideal.div One (One + Ideal.exp (-v)) = sig v := by
  rw [One_eq]; rfl

/-- softplus as jnp's logaddexp (v, 0) lowers: a self-comparison guard that never fires on the extended reals, then
    max (v, 0) + log1p (e^(−|v − 0|)); the kernel writes the negation as 0 − ·. -/
def softplus (v : EReal) : EReal :=
  Scalar.select (Ideal.cmp .one (v - Z) (v - Z)) (v + Z)
    (max v Z + Ideal.log1p (Ideal.exp (Z - max (v - Z) (-(v - Z)))))

/-- The reference's spelling: the unordered comparison, and a plain negation. -/
theorem softplus_spelt (v : EReal) :
    Scalar.select (Ideal.cmp .une (v - Z) (v - Z)) (v + Z)
      (max v Z + Ideal.log1p (Ideal.exp (-(max (v - Z) (-(v - Z)))))) = softplus v := by
  unfold softplus
  have e : (Z - max (v - Z) (-(v - Z))) = -(max (v - Z) (-(v - Z))) := by rw [Z_eq, zero_sub]
  rw [e]; rfl

variable (w : Weights) (o : Fin 32 → EReal) (mi : Fin 4 → Fin 32 → EReal) (h c : Fin 50 → EReal)

def x (s : Fin 64) : EReal := max (dense o w.Win w.bin s) Z

def h1 (p : Fin 4) (k : Fin 100) : EReal := max ((∑ s : Fin 64, x w o s * w.W1 (ix3 p k s)) + w.b1 (ix2 p k)) Z

def op (p : Fin 4) (m : Fin 32) : EReal := (∑ k : Fin 100, h1 w o p k * w.W2 (ix3 p m k)) + w.b2 (ix2 p m)

/-- x followed by the four incoming messages. -/
def hm (k : Fin 192) : EReal :=
  if hk : k.val < 64 then x w o ⟨k.val, hk⟩
  else mi ⟨(k.val - 64) / 32, by have := k.isLt; omega⟩ ⟨(k.val - 64) % 32, Nat.mod_lt _ (by decide)⟩

def gates (g : Fin 200) : EReal := dense (hm w o mi) w.Wih w.bih g + dense h w.Whh w.bhh g

def cnew (j : Fin 50) : EReal :=
  sig (gates w o mi h ⟨50 + j.val, by have := j.isLt; omega⟩) * c j
    + sig (gates w o mi h ⟨j.val, by have := j.isLt; omega⟩) * Ideal.tanh (gates w o mi h ⟨100 + j.val, by have := j.isLt; omega⟩)

def hnew (j : Fin 50) : EReal :=
  sig (gates w o mi h ⟨150 + j.val, by have := j.isLt; omega⟩) * Ideal.tanh (cnew w o mi h c j)

def u1 (j : Fin 100) : EReal := max (dense (hnew w o mi h c) w.Wu1 w.bu1 j) Z
def u2 (j : Fin 100) : EReal := max (dense (u1 w o mi h c) w.Wu2 w.bu2 j) Z
def h2 (j : Fin 64) : EReal := dense (u2 w o mi h c) w.Wu3 w.bu3 j
def mu (j : Fin 16) : EReal := dense (h2 w o mi h c) w.Wmu w.bmu j
def lv (j : Fin 16) : EReal := dense (h2 w o mi h c) w.Wvar w.bvar j

/-- maxlv − lv, the argument of the first softplus. -/
def a1 (j : Fin 16) : EReal := w.maxlv (ix2 (0 : Fin 1) j) - lv w o mi h c j
/-- (maxlv − softplus a1) − minlv, the argument of the second. -/
def a2 (j : Fin 16) : EReal := (w.maxlv (ix2 (0 : Fin 1) j) - softplus (a1 w o mi h c j)) - w.minlv (ix2 (0 : Fin 1) j)
def var (j : Fin 16) : EReal := Ideal.exp (w.minlv (ix2 (0 : Fin 1) j) + softplus (a2 w o mi h c j))

/-- The output row: mu, var, the outgoing messages port by port, h2, hnew, cnew. -/
def out (j : Fin 324) : EReal :=
  if q1 : j.val < 16 then mu w o mi h c ⟨j.val, q1⟩
  else if q2 : j.val < 32 then var w o mi h c ⟨j.val - 16, by omega⟩
  else if q3 : j.val < 160 then op w o ⟨(j.val - 32) / 32, by omega⟩ ⟨(j.val - 32) % 32, Nat.mod_lt _ (by decide)⟩
  else if q4 : j.val < 224 then h2 w o mi h c ⟨j.val - 160, by omega⟩
  else if q5 : j.val < 274 then hnew w o mi h c ⟨j.val - 224, by omega⟩
  else cnew w o mi h c ⟨j.val - 274, by have := j.isLt; omega⟩

end Cert.Gnn

end
-- ==== Proof.LibDense.lean ====
/-
  A dense layer as the kernel spells it, read at an entry.

  The matrix unit's product of an [M, K] matrix with an [N, K] matrix contracted on both last axes, into a zero
  accumulator, is at entry (r, j) the sum over k of A (r, k) · W (j, k); a bias [N] viewed [1, N] and repeated down the
  rows adds b j.  Stated for any extents.
-/
import Idealize.ShloMosaic.PureOps
import Idealize.ShloMosaic.Lib.ValueIdx
import Idealize.ShloMosaic.Lib.Pipeline.Value
import Idealize.ShloMosaic.PureOps.Ideal.Laws

namespace Cert.LibDense

open Idealize.ShloMosaic Idealize.ShloMosaic.ValueIdx

variable {M K N : Nat}

theorem nt_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

theorem nt_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The product into a zero accumulator at entry (r, j): the sum over the shared last axis. -/
theorem matmul_nt_apply {φ₁ φ₂ : FTy} (prec : Option ContractPrecision)
    (A : FVec Ideal ⟨2, ![M, K]⟩ φ₁) (W : FVec Ideal ⟨2, ![N, K]⟩ φ₂) (r : Fin M) (j : Fin N) :
    matmul (DotDims.transposedRhs M K N) prec A W (constant ⟨2, ![M, N]⟩ .f32 0x00000000#32) (ix2 r j)
      = ∑ k : Fin K, A (ix2 r k) * W (ix2 j k) := by
  show FloatOps.matmul (DotDims.transposedRhs M K N) prec A W (constant ⟨2, ![M, N]⟩ .f32 0x00000000#32) (ix2 r j) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k) = ix2 r k :=
    funext fun a => Fin.ext (by
      match a with
      | ⟨0, _⟩ => exact nt_lhs_0 _ _
      | ⟨1, _⟩ => exact ((DotDims.transposedRhs M K N).lhsIdx_val_of_single rfl _ _).trans hk)
  have er : (DotDims.transposedRhs M K N).rhsIdx (ix2 r j) ((contrEquiv1 (DotDims.transposedRhs M K N) K rfl rfl).symm k) = ix2 j k :=
    funext fun a => Fin.ext (by
      match a with
      | ⟨0, _⟩ => exact nt_rhs_0 _ _
      | ⟨1, _⟩ => exact ((DotDims.transposedRhs M K N).rhsIdx_val_of_single rfl _ _).trans hk)
  rw [el, er]

/-- A bias [N] viewed as one row [1, N] and repeated down M rows reads b j at (r, j). -/
theorem bias_row_apply {α : Type} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (j : Fin N) :
    broadcastTo ⟨2, ![M, N]⟩ (shapeCast ⟨2, ![1, N]⟩ b h1) h2 (ix2 r j) = b (ix1 j) := by
  rw [broadcastTo_apply _ h2 (ix2 r j) (ix2 (0 : Fin 1) j) (fun a => by
    match a with
    | ⟨0, _⟩ => simp [ix2]
    | ⟨1, _⟩ =>
      by_cases hN : N = 1
      · have := j.isLt; simp [ix2, hN]; omega
      · simp [ix2, hN])]
  exact shapeCast_apply b h1 (ix2 (0 : Fin 1) j) (ix1 j) (by
    rw [Shape.rowMajor_val_one, Shape.rowMajor_val_two]
    show (j : ℕ) = (0 : ℕ) * N + (j : ℕ)
    omega)

end Cert.LibDense
-- ==== Proof.LibConcatCols.lean ====
/-
  Matrices laid side by side, read at an element.

  A concatenation of matrices [N, m₀], [N, m₁], … along the column axis is the [N, m₀ + m₁ + …] matrix whose column k is
  column k − (m₀ + … + m_{p−1}) of the piece p whose span of columns holds k.  Stated for any list of pieces (the piece and the
  widths before it given), for three pieces, and for a list of single-column pieces, where column k is piece k.  Last, the
  result of an operation with a list of operands, as the operation's function of the operands' contents.
-/
import Idealize.ShloMosaic.PureOps
import Idealize.ShloMosaic.Lib.ValueIdx
import Idealize.ShloMosaic.Lib.Pipeline.Value
import Idealize.ShloMosaic.Lib.StableHlo.Run

namespace Cert.LibConcatCols

open Idealize.ShloMosaic Idealize.ShloMosaic.ValueIdx

variable {α : Type}

/-- ANY PIECES: piece p of the list is an [N, m] matrix x, the pieces before it are `pre` columns wide together, and column k
    lies in its span; then the joined matrix at (e, k) is x at (e, k − pre). -/
theorem cols_piece {N M : Nat} (xs : List ((s : Shape) × (s.Idx → α)))
    (h : Shape.Concatenates (xs.map (·.1)) ⟨2, ![N, M]⟩ 1) (e : Fin N) (k : Fin M)
    (p : Nat) (hp : p < xs.length) (m : Nat) (x : (⟨2, ![N, m]⟩ : Shape).Idx → α) (hx : xs[p] = ⟨⟨2, ![N, m]⟩, x⟩)
    (pre : Nat)
    (hpre : (((xs.take p).map (·.1)).map fun s =>
      if h : s.rank = (⟨2, ![N, M]⟩ : Shape).rank then s.size ((1 : Fin 2).cast h.symm) else 0).sum = pre)
    (hlo : pre ≤ k.val) (hhi : k.val - pre < m) :
    concatenate ⟨2, ![N, M]⟩ 1 xs h (ix2 e k) = x (ix2 e ⟨k.val - pre, hhi⟩) :=
  concatenate_apply_piece (1 : Fin 2) xs h (ix2 e k) p hp ⟨2, ![N, m]⟩ x hx rfl pre hpre (ix2 e ⟨k.val - pre, hhi⟩)
    (fun b hb => match b, hb with | ⟨0, _⟩, _ => rfl | ⟨1, _⟩, hb => absurd rfl hb)
    (by show pre + (k.val - pre) = k.val; omega)

/-- THREE PIECES of widths m₁, m₂, m₃: a column below m₁ reads the first piece … -/
theorem cols3_first {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M) (hk : k.val < m₁) :
    concatenate ⟨2, ![N, M]⟩ 1 [⟨⟨2, ![N, m₁]⟩, x₁⟩, ⟨⟨2, ![N, m₂]⟩, x₂⟩, ⟨⟨2, ![N, m₃]⟩, x₃⟩] h (ix2 e k) = x₁ (ix2 e ⟨k.val, hk⟩) :=
  cols_piece [⟨⟨2, ![N, m₁]⟩, x₁⟩, ⟨⟨2, ![N, m₂]⟩, x₂⟩, ⟨⟨2, ![N, m₃]⟩, x₃⟩] h e k 0 (by simp) m₁ x₁ rfl 0 rfl (Nat.zero_le _) hk

/-- … a column in [m₁, m₁ + m₂) the second, m₁ columns to the left … -/
theorem cols3_second {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M)
    (h1 : m₁ ≤ k.val) (h2 : k.val - m₁ < m₂) :
    concatenate ⟨2, ![N, M]⟩ 1 [⟨⟨2, ![N, m₁]⟩, x₁⟩, ⟨⟨2, ![N, m₂]⟩, x₂⟩, ⟨⟨2, ![N, m₃]⟩, x₃⟩] h (ix2 e k)
      = x₂ (ix2 e ⟨k.val - m₁, h2⟩) :=
  cols_piece [⟨⟨2, ![N, m₁]⟩, x₁⟩, ⟨⟨2, ![N, m₂]⟩, x₂⟩, ⟨⟨2, ![N, m₃]⟩, x₃⟩] h e k 1 (by simp) m₂ x₂ rfl m₁ (by simp) h1 h2

/-- … and a column from m₁ + m₂ on the third, m₁ + m₂ columns to the left. -/
theorem cols3_third {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M)
    (h1 : m₁ + m₂ ≤ k.val) (h2 : k.val - (m₁ + m₂) < m₃) :
    concatenate ⟨2, ![N, M]⟩ 1 [⟨⟨2, ![N, m₁]⟩, x₁⟩, ⟨⟨2, ![N, m₂]⟩, x₂⟩, ⟨⟨2, ![N, m₃]⟩, x₃⟩] h (ix2 e k)
      = x₃ (ix2 e ⟨k.val - (m₁ + m₂), h2⟩) :=
  cols_piece [⟨⟨2, ![N, m₁]⟩, x₁⟩, ⟨⟨2, ![N, m₂]⟩, x₂⟩, ⟨⟨2, ![N, m₃]⟩, x₃⟩] h e k 2 (by simp) m₃ x₃ rfl (m₁ + m₂) (by simp) h1 h2

/-- Single-column pieces are one column wide each: the widths of the first few add up to their number. -/
theorem unit_widths_sum {N M : Nat} : ∀ l : List ((⟨2, ![N, 1]⟩ : Shape).Idx → α),
    (((l.map fun y => (⟨⟨2, ![N, 1]⟩, y⟩ : (s : Shape) × (s.Idx → α))).map (·.1)).map fun s =>
      if h : s.rank = (⟨2, ![N, M]⟩ : Shape).rank then s.size ((1 : Fin 2).cast h.symm) else 0).sum = l.length
  | [] => rfl
  | y :: l => by
    rw [List.map_cons, List.map_cons, List.map_cons, List.sum_cons, unit_widths_sum l, List.length_cons]
    exact Nat.add_comm 1 l.length

/-- SINGLE-COLUMN PIECES: the matrix joined from the columns `ys` has, at (e, k), column k at (e, 0). -/
theorem cols_unit {N M : Nat} (ys : List ((⟨2, ![N, 1]⟩ : Shape).Idx → α))
    (h : Shape.Concatenates ((ys.map fun y => (⟨⟨2, ![N, 1]⟩, y⟩ : (s : Shape) × (s.Idx → α))).map (·.1)) ⟨2, ![N, M]⟩ 1)
    (e : Fin N) (k : Fin M) (hk : k.val < ys.length) :
    concatenate ⟨2, ![N, M]⟩ 1 (ys.map fun y => ⟨⟨2, ![N, 1]⟩, y⟩) h (ix2 e k) = ys[k.val] (ix2 e (0 : Fin 1)) := by
  have hp : k.val < (ys.map fun y => (⟨⟨2, ![N, 1]⟩, y⟩ : (s : Shape) × (s.Idx → α))).length := by
    rw [List.length_map]; exact hk
  have hpre := unit_widths_sum (α := α) (N := N) (M := M) (ys.take k.val)
  rw [List.length_take, Nat.min_eq_left (Nat.le_of_lt hk), List.map_take] at hpre
  refine (cols_piece _ h e k k.val hp 1 ys[k.val] (List.getElem_map _) k.val hpre (Nat.le_refl _) (by omega)).trans ?_
  refine congrArg ys[k.val] (funext fun b => ?_)
  match b with
  | ⟨0, _⟩ => rfl
  | ⟨1, _⟩ => exact Fin.ext (by show k.val - k.val = 0; omega)

/-! ## An operation with a list of operands -/

section Nary
open Idealize.ShloMosaic.StableHlo
variable {τ : Topo} {sig : RefSig} {Val : EltTy → Type}

/-- The result of an operation over a family of operand buffers, with the operands' contents spelt out: `g` is the operation's
    function at the operands' contents (for a literal family `![r₀, r₁, …]` and a function `fun u => F (u 0) (u 1) …` the
    equation `hg` holds by `rfl`: the family at the literal k is r_k). -/
theorem nary_result_spelt {n : Nat} (xs : Fin n → Ref sig .tc) (y : Ref sig .tc)
    (f : ((k : Fin n) → (xs k).ty.Contents Val) → y.ty.Contents Val) (hxs hy) (V : Valuation τ sig Val)
    (g : y.ty.Contents Val) (hg : f (fun k => V (Proc.devRef .tc (xs k))) = g) :
    (nary (τ := τ) xs y f hxs hy).result V (Proc.devRef .tc y) = g :=
  (nary_result xs y f hxs hy V).trans hg

end Nary

end Cert.LibConcatCols
-- ==== Proof.KMsg.lean ====
/-
  The kernel body's first layers at one row of a block: the input layer x = relu (W_in o + b_in), the four
  outgoing-message networks port by port (each a two-layer network on x with that port's slice of the stacked weights),
  their concatenation along the columns, and the four incoming-message blocks.  Entry (r, j) of each value is the
  specification's row function at row r of the block: the matrix unit's product into a zero accumulator is the sum over
  the shared axis, a change of float format is the identity, a bias row repeated down the block reads its own entry.
-/
import proofs.«136165_j65618510348951_1_alg».proof.Proof.Gen.KernelIdeal.Frame
import proofs.«136165_j65618510348951_1_alg».proof.Proof.Spec
import proofs.«136165_j65618510348951_1_alg».proof.Proof.LibDense
import proofs.«136165_j65618510348951_1_alg».proof.Proof.LibConcatCols

noncomputable section

namespace Cert.KernelIdeal.Body

open Idealize.ShloMosaic Idealize.ShloMosaic.ValueIdx Cert.KernelIdeal Cert.KernelIdeal.Gen Cert

variable (w : Gnn.Weights) (r : Fin 2048)

/-- A [1, a, b] block viewed [a, b] reads (0, i, j) at (i, j). -/
theorem msg_drop3 {a b : Nat} {α : Type} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine (shapeCast_dropUnit_apply (d := ![a, b]) v h (ix2 i j)).trans (congrArg v (funext fun c => ?_))
  match c with
  | ⟨0, _⟩ => rfl
  | ⟨1, _⟩ => rfl
  | ⟨2, _⟩ => rfl

/-- A [1, a] block viewed [a] reads (0, i) at i. -/
theorem msg_drop2 {a : Nat} {α : Type} (v : (⟨2, ![1, a]⟩ : Shape).Idx → α)
    (h : (⟨2, ![1, a]⟩ : Shape).ShapeCasts ⟨1, ![a]⟩) (i : Fin a) :
    shapeCast ⟨1, ![a]⟩ v h (ix1 i) = v (ix2 (0 : Fin 1) i) := by
  refine (shapeCast_dropUnit_apply (d := ![a]) v h (ix1 i)).trans (congrArg v (funext fun c => ?_))
  match c with
  | ⟨0, _⟩ => rfl
  | ⟨1, _⟩ => rfl

/-- A [1, a, b] sub-block at offset (p, 0, 0) of an [n, a, b] array reads the array at (p, i, j). -/
theorem msg_ld3 {n a b : Nat} {α : Type} (X : (⟨3, ![n, a, b]⟩ : Shape).Idx → α) (q : Nat) (p : Fin n) (hq : p.val = q)
    (inb : ∀ c, (![q, 0, 0] : Fin 3 → Nat) c + (![1, a, b] : Fin 3 → Nat) c ≤ (⟨3, ![n, a, b]⟩ : Shape).size c)
    (i : Fin a) (j : Fin b) :
    X ((Rect.unit (s := ⟨3, ![n, a, b]⟩) ![q, 0, 0] ![1, a, b] inb).toLoadRect.idx (ix3 (0 : Fin 1) i j)) = X (ix3 p i j) := by
  subst hq
  refine congrArg X (funext fun c => Fin.ext ?_)
  match c with
  | ⟨0, _⟩ => show p.val + 1 * 0 = p.val; omega
  | ⟨1, _⟩ => show 0 + 1 * i.val = i.val; omega
  | ⟨2, _⟩ => show 0 + 1 * j.val = j.val; omega

/-- A [1, a] sub-block at offset (p, 0) of an [n, a] array reads the array at (p, i). -/
theorem msg_ld2 {n a : Nat} {α : Type} (X : (⟨2, ![n, a]⟩ : Shape).Idx → α) (q : Nat) (p : Fin n) (hq : p.val = q)
    (inb : ∀ c, (![q, 0] : Fin 2 → Nat) c + (![1, a] : Fin 2 → Nat) c ≤ (⟨2, ![n, a]⟩ : Shape).size c)
    (i : Fin a) :
    X ((Rect.unit (s := ⟨2, ![n, a]⟩) ![q, 0] ![1, a] inb).toLoadRect.idx (ix2 (0 : Fin 1) i)) = X (ix2 p i) := by
  subst hq
  refine congrArg X (funext fun c => Fin.ext ?_)
  match c with
  | ⟨0, _⟩ => show p.val + 1 * 0 = p.val; omega
  | ⟨1, _⟩ => show 0 + 1 * i.val = i.val; omega

/-- One port's message network over the row's x: W2[p] relu (W1[p] x + b1[p]) + b2[p], the port's four weight blocks
    given as [1, …] blocks that read the stacked weights at port p. -/
theorem msg_port_apply (o : Fin 32 → EReal) (v10 : FVec Ideal S2048x64 .f32) (hx : ∀ s, v10 (ix2 r s) = Gnn.x w o s)
    (p : Fin 4) (W1p : Vec Ideal S1x100x64 .f32) (b1p : Vec Ideal S1x100 .f32) (W2p : Vec Ideal S1x32x100 .f32)
    (b2p : Vec Ideal S1x32 .f32)
    (hW1 : ∀ k s, W1p (ix3 (0 : Fin 1) k s) = w.W1 (ix3 p k s)) (hb1 : ∀ k, b1p (ix2 (0 : Fin 1) k) = w.b1 (ix2 p k))
    (hW2 : ∀ m k, W2p (ix3 (0 : Fin 1) m k) = w.W2 (ix3 p m k)) (hb2 : ∀ m, b2p (ix2 (0 : Fin 1) m) = w.b2 (ix2 p m))
    (m : Fin 32) :
    k0_pay5 (F := Ideal) v10 (k0_pay4 W1p) b1p W2p b2p (ix2 r m) = Gnn.op w o p m := by
  unfold k0_pay5 k0_pay4 Gnn.op
  dsimp only
  rw [addf_apply,
    show dot_S2048x100_S32x100_S2048x32_1_1_0_0_n_n = DotDims.transposedRhs 2048 100 32 from rfl,
    LibDense.matmul_nt_apply, LibDense.bias_row_apply, msg_drop2, hb2]
  refine congrArg (· + w.b2 (ix2 p m)) (Finset.sum_congr rfl fun k _ => ?_)
  rw [truncf_apply, truncf_apply, msg_drop3, hW2, maximumf_apply, addf_apply, broadcast_apply,
    show dot_S2048x64_S100x64_S2048x100_1_1_0_0_n_n = DotDims.transposedRhs 2048 64 100 from rfl,
    LibDense.matmul_nt_apply, LibDense.bias_row_apply, msg_drop2, hb1]
  unfold Gnn.h1
  refine congrArg (· * w.W2 (ix3 p m k)) (congrArg (max · Gnn.Z) (congrArg (· + w.b1 (ix2 p k)) (Finset.sum_congr rfl fun s _ => ?_)))
  rw [truncf_apply, truncf_apply, msg_drop3, hW1, hx]

theorem pay2_apply (v0 : Vec Ideal S2048x32 .f32) (s : Fin 64) :
    k0_pay2 (F := Ideal) v0 w.Win w.bin (ix2 r s) = Gnn.x w (fun k => v0 (ix2 r k)) s := by
  unfold k0_pay2 Gnn.x Gnn.dense
  dsimp only
  rw [maximumf_apply, addf_apply, broadcast_apply,
    show dot_S2048x32_S64x32_S2048x64_1_1_0_0_n_n = DotDims.transposedRhs 2048 32 64 from rfl,
    LibDense.matmul_nt_apply, LibDense.bias_row_apply]
  rfl

theorem pay3_apply (v0 : Vec Ideal S2048x32 .f32) (m : Fin 32) :
    k0_pay3 (F := Ideal) v0 w.Win w.bin (View.ld w.W1 r0_3) (View.ld w.b1 r0_4) (View.ld w.W2 r0_5) (View.ld w.b2 r0_6) (ix2 r m)
      = Gnn.op w (fun k => v0 (ix2 r k)) 0 m := by
  show k0_pay5 (F := Ideal) (k0_pay2 v0 w.Win w.bin) (k0_pay4 (View.ld w.W1 r0_3)) (View.ld w.b1 r0_4) (View.ld w.W2 r0_5)
    (View.ld w.b2 r0_6) (ix2 r m) = _
  refine msg_port_apply w r (fun k => v0 (ix2 r k)) (k0_pay2 v0 w.Win w.bin) (fun s => pay2_apply w r v0 s) 0 _ _ _ _ ?_ ?_ ?_ ?_ m
  · exact fun k s => msg_ld3 w.W1 0 0 rfl inb_S4x100x64_S1x100x64_0_0_0 k s
  · exact fun k => msg_ld2 w.b1 0 0 rfl inb_S4x100_S1x100_0_0 k
  · exact fun m k => msg_ld3 w.W2 0 0 rfl inb_S4x32x100_S1x32x100_0_0_0 m k
  · exact fun m => msg_ld2 w.b2 0 0 rfl inb_S4x32_S1x32_0_0 m

theorem pay5_apply (o : Fin 32 → EReal) (v10 : FVec Ideal S2048x64 .f32) (hx : ∀ s, v10 (ix2 r s) = Gnn.x w o s) (m : Fin 32) :
    k0_pay5 (F := Ideal) v10 (k0_pay4 (View.ld w.W1 r0_7)) (View.ld w.b1 r0_8) (View.ld w.W2 r0_9) (View.ld w.b2 r0_10) (ix2 r m)
      = Gnn.op w o 1 m := by
  refine msg_port_apply w r o v10 hx 1 _ _ _ _ ?_ ?_ ?_ ?_ m
  · exact fun k s => msg_ld3 w.W1 1 1 rfl inb_S4x100x64_S1x100x64_1_0_0 k s
  · exact fun k => msg_ld2 w.b1 1 1 rfl inb_S4x100_S1x100_1_0 k
  · exact fun m k => msg_ld3 w.W2 1 1 rfl inb_S4x32x100_S1x32x100_1_0_0 m k
  · exact fun m => msg_ld2 w.b2 1 1 rfl inb_S4x32_S1x32_1_0 m

theorem pay9_apply (o : Fin 32 → EReal) (v10 : FVec Ideal S2048x64 .f32) (hx : ∀ s, v10 (ix2 r s) = Gnn.x w o s)
    (v32 v54 : FVec Ideal S2048x32 .f32) (h32 : ∀ m, v32 (ix2 r m) = Gnn.op w o 0 m) (h54 : ∀ m, v54 (ix2 r m) = Gnn.op w o 1 m)
    (q : Fin 128) :
    k0_pay9 (F := Ideal) v10 v32 v54 (k0_pay6 (View.ld w.b2 r0_14)) (k0_pay7 v10 (View.ld w.W1 r0_11) (View.ld w.b1 r0_12))
        (k0_pay8 (View.ld w.W2 r0_13)) (constant S2048x32 .f32 0x00000000#32)
        (View.ld w.W1 r0_15) (View.ld w.b1 r0_16) (View.ld w.W2 r0_17) (View.ld w.b2 r0_18) (ix2 r q)
      = Gnn.op w o ⟨q.val / 32, by have := q.isLt; omega⟩ ⟨q.val % 32, Nat.mod_lt _ (by decide)⟩ := by
  suffices H : ∀ (p : Nat) (hp : p < 4) (j : Fin 32), q.val = 32 * p + j.val →
      k0_pay9 (F := Ideal) v10 v32 v54 (k0_pay6 (View.ld w.b2 r0_14)) (k0_pay7 v10 (View.ld w.W1 r0_11) (View.ld w.b1 r0_12))
        (k0_pay8 (View.ld w.W2 r0_13)) (constant S2048x32 .f32 0x00000000#32)
        (View.ld w.W1 r0_15) (View.ld w.b1 r0_16) (View.ld w.W2 r0_17) (View.ld w.b2 r0_18) (ix2 r q) = Gnn.op w o ⟨p, hp⟩ j from
    H _ _ _ (by show q.val = 32 * (q.val / 32) + q.val % 32; omega)
  intro p hp j hq
  have hj := j.isLt
  -- the four pieces: ports 0 and 1 as given, ports 2 and 3 the port network at the third and fourth weight blocks
  have e : k0_pay9 (F := Ideal) v10 v32 v54 (k0_pay6 (View.ld w.b2 r0_14)) (k0_pay7 v10 (View.ld w.W1 r0_11) (View.ld w.b1 r0_12))
        (k0_pay8 (View.ld w.W2 r0_13)) (constant S2048x32 .f32 0x00000000#32)
        (View.ld w.W1 r0_15) (View.ld w.b1 r0_16) (View.ld w.W2 r0_17) (View.ld w.b2 r0_18)
      = concatenate S2048x128 1 [⟨S2048x32, v32⟩, ⟨S2048x32, v54⟩,
          ⟨S2048x32, k0_pay5 (F := Ideal) v10 (k0_pay4 (View.ld w.W1 r0_11)) (View.ld w.b1 r0_12) (View.ld w.W2 r0_13) (View.ld w.b2 r0_14)⟩,
          ⟨S2048x32, k0_pay5 (F := Ideal) v10 (k0_pay4 (View.ld w.W1 r0_15)) (View.ld w.b1 r0_16) (View.ld w.W2 r0_17) (View.ld w.b2 r0_18)⟩]
          concatenates_S2048x32_S2048x32_S2048x32_S2048x32_S2048x128_d1 := rfl
  rw [e]
  have h2 : ∀ m, k0_pay5 (F := Ideal) v10 (k0_pay4 (View.ld w.W1 r0_11)) (View.ld w.b1 r0_12) (View.ld w.W2 r0_13) (View.ld w.b2 r0_14) (ix2 r m)
      = Gnn.op w o 2 m := by
    intro m
    refine msg_port_apply w r o v10 hx 2 _ _ _ _ ?_ ?_ ?_ ?_ m
    · exact fun k s => msg_ld3 w.W1 2 2 rfl inb_S4x100x64_S1x100x64_2_0_0 k s
    · exact fun k => msg_ld2 w.b1 2 2 rfl inb_S4x100_S1x100_2_0 k
    · exact fun m k => msg_ld3 w.W2 2 2 rfl inb_S4x32x100_S1x32x100_2_0_0 m k
    · exact fun m => msg_ld2 w.b2 2 2 rfl inb_S4x32_S1x32_2_0 m
  have h3 : ∀ m, k0_pay5 (F := Ideal) v10 (k0_pay4 (View.ld w.W1 r0_15)) (View.ld w.b1 r0_16) (View.ld w.W2 r0_17) (View.ld w.b2 r0_18) (ix2 r m)
      = Gnn.op w o 3 m := by
    intro m
    refine msg_port_apply w r o v10 hx 3 _ _ _ _ ?_ ?_ ?_ ?_ m
    · exact fun k s => msg_ld3 w.W1 3 3 rfl inb_S4x100x64_S1x100x64_3_0_0 k s
    · exact fun k => msg_ld2 w.b1 3 3 rfl inb_S4x100_S1x100_3_0 k
    · exact fun m k => msg_ld3 w.W2 3 3 rfl inb_S4x32x100_S1x32x100_3_0_0 m k
    · exact fun m => msg_ld2 w.b2 3 3 rfl inb_S4x32_S1x32_3_0 m
  generalize k0_pay5 (F := Ideal) v10 (k0_pay4 (View.ld w.W1 r0_11)) (View.ld w.b1 r0_12) (View.ld w.W2 r0_13) (View.ld w.b2 r0_14) = v76 at h2 ⊢
  generalize k0_pay5 (F := Ideal) v10 (k0_pay4 (View.ld w.W1 r0_15)) (View.ld w.b1 r0_16) (View.ld w.W2 r0_17) (View.ld w.b2 r0_18) = v98 at h3 ⊢
  have hp0 : p = 0 ∨ p = 1 ∨ p = 2 ∨ p = 3 := by omega
  rcases hp0 with rfl | rfl | rfl | rfl
  · refine (LibConcatCols.cols_piece _ _ r q 0 (by simp) 32 v32 rfl 0 rfl (Nat.zero_le _) (by omega)).trans ?_
    rw [h32]
    exact congrArg (Gnn.op w o 0) (Fin.ext (by show q.val - 0 = j.val; omega))
  · refine (LibConcatCols.cols_piece _ _ r q 1 (by simp) 32 v54 rfl 32 rfl (by omega) (by omega)).trans ?_
    rw [h54]
    exact congrArg (Gnn.op w o 1) (Fin.ext (by show q.val - 32 = j.val; omega))
  · refine (LibConcatCols.cols_piece _ _ r q 2 (by simp) 32 v76 rfl 64 rfl (by omega) (by omega)).trans ?_
    rw [h2]
    exact congrArg (Gnn.op w o 2) (Fin.ext (by show q.val - 64 = j.val; omega))
  · refine (LibConcatCols.cols_piece _ _ r q 3 (by simp) 32 v98 rfl 96 rfl (by omega) (by omega)).trans ?_
    rw [h3]
    exact congrArg (Gnn.op w o 3) (Fin.ext (by show q.val - 96 = j.val; omega))

theorem pay10_apply (x1 : Vec Ideal S4x2048x32 .f32) (k : Fin 32) :
    k0_pay10 (F := Ideal) (View.ld x1 r0_19) (ix2 r k) = x1 (ix3 (0 : Fin 4) r k) := by
  unfold k0_pay10
  refine (shapeCast_dropUnit_apply (d := ![2048, 32]) _ _ _).trans ?_
  refine congrArg x1 (funext fun a => Fin.ext ?_)
  match a with
  | ⟨0, _⟩ => rfl
  | ⟨1, _⟩ => show 0 + 1 * r.val = r.val; omega
  | ⟨2, _⟩ => show 0 + 1 * k.val = k.val; omega
theorem pay11_apply (x1 : Vec Ideal S4x2048x32 .f32) (k : Fin 32) :
    k0_pay11 (F := Ideal) (View.ld x1 r0_20) (ix2 r k) = x1 (ix3 (1 : Fin 4) r k) := by
  unfold k0_pay11
  refine (shapeCast_dropUnit_apply (d := ![2048, 32]) _ _ _).trans ?_
  refine congrArg x1 (funext fun a => Fin.ext ?_)
  match a with
  | ⟨0, _⟩ => rfl
  | ⟨1, _⟩ => show 0 + 1 * r.val = r.val; omega
  | ⟨2, _⟩ => show 0 + 1 * k.val = k.val; omega
theorem pay12_apply (x1 : Vec Ideal S4x2048x32 .f32) (k : Fin 32) :
    k0_pay12 (F := Ideal) (View.ld x1 r0_21) (ix2 r k) = x1 (ix3 (2 : Fin 4) r k) := by
  unfold k0_pay12
  refine (shapeCast_dropUnit_apply (d := ![2048, 32]) _ _ _).trans ?_
  refine congrArg x1 (funext fun a => Fin.ext ?_)
  match a with
  | ⟨0, _⟩ => rfl
  | ⟨1, _⟩ => show 0 + 1 * r.val = r.val; omega
  | ⟨2, _⟩ => show 0 + 1 * k.val = k.val; omega
theorem pay13_apply (x1 : Vec Ideal S4x2048x32 .f32) (k : Fin 32) :
    k0_pay13 (F := Ideal) (View.ld x1 r0_22) (ix2 r k) = x1 (ix3 (3 : Fin 4) r k) := by
  unfold k0_pay13
  refine (shapeCast_dropUnit_apply (d := ![2048, 32]) _ _ _).trans ?_
  refine congrArg x1 (funext fun a => Fin.ext ?_)
  match a with
  | ⟨0, _⟩ => rfl
  | ⟨1, _⟩ => show 0 + 1 * r.val = r.val; omega
  | ⟨2, _⟩ => show 0 + 1 * k.val = k.val; omega

end Cert.KernelIdeal.Body

end
-- ==== Proof.KLstm.lean ====
/-
  The kernel body's LSTM cell at one row of a block: the 192-wide row (x followed by the four incoming messages), the
  gates as the sum of two dense layers, their four slices of width 50, and cnew = σ(f) c + σ(i) tanh g,
  hnew = σ(o) tanh cnew; then the first layer of the update network on hnew.
-/
import proofs.«136165_j65618510348951_1_alg».proof.Proof.Gen.KernelIdeal.Frame
import proofs.«136165_j65618510348951_1_alg».proof.Proof.Spec
import proofs.«136165_j65618510348951_1_alg».proof.Proof.LibDense
import proofs.«136165_j65618510348951_1_alg».proof.Proof.LibConcatCols

noncomputable section

namespace Cert.KernelIdeal.Body

open Idealize.ShloMosaic Idealize.ShloMosaic.ValueIdx Cert.KernelIdeal Cert.KernelIdeal.Gen Cert

variable (w : Gnn.Weights) (r : Fin 2048)

/-- An entry of the messages named by two pairs of equal positions. -/
theorem lstm_mi_eq (mi : Fin 4 → Fin 32 → EReal) (a a' : Fin 4) (b b' : Fin 32) (ha : a.val = a'.val) (hb : b.val = b'.val) :
    mi a b = mi a' b' := by
  rw [Fin.ext ha, Fin.ext hb]

/-- The logistic function and the hyperbolic tangent act lane by lane. -/
theorem lstm_logistic_apply {s : Shape} {φ : FTy} (x : FVec Ideal s φ) (i : s.Idx) :
    logistic x i = Ideal.logistic (x i) := rfl

theorem lstm_tanh_apply {s : Shape} {φ : FTy} (x : FVec Ideal s φ) (i : s.Idx) :
    tanh x i = Ideal.tanh (x i) := rfl

section Lstm
variable (o : Fin 32 → EReal) (mi : Fin 4 → Fin 32 → EReal)
  (v10 : FVec Ideal S2048x64 .f32) (hx : ∀ s, v10 (ix2 r s) = Gnn.x w o s)
  (v101 v103 v105 v107 : FVec Ideal S2048x32 .f32)
  (h101 : ∀ k, v101 (ix2 r k) = mi 0 k) (h103 : ∀ k, v103 (ix2 r k) = mi 1 k)
  (h105 : ∀ k, v105 (ix2 r k) = mi 2 k) (h107 : ∀ k, v107 (ix2 r k) = mi 3 k)
  (v118 v132 : Vec Ideal S2048x50 .f32)
include hx h101 h103 h105 h107

/-- The four incoming messages laid side by side: column q is entry q mod 32 of message q div 32. -/
theorem lstm_msgs_read (q : Fin 128) :
    concatenate S2048x128 1 [⟨S2048x32, v101⟩, ⟨S2048x32, v103⟩, ⟨S2048x32, v105⟩, ⟨S2048x32, v107⟩]
        concatenates_S2048x32_S2048x32_S2048x32_S2048x32_S2048x128_d1 (ix2 r q)
      = mi ⟨q.val / 32, by have := q.isLt; omega⟩ ⟨q.val % 32, Nat.mod_lt _ (by decide)⟩ := by
  have hq := q.isLt
  by_cases c1 : q.val < 32
  · refine (LibConcatCols.cols_piece _ _ r q 0 (by simp) 32 v101 rfl 0 rfl (Nat.zero_le _) c1).trans ?_
    rw [h101]
    exact lstm_mi_eq mi _ _ _ _ (by show 0 = q.val / 32; omega) (by show q.val - 0 = q.val % 32; omega)
  · by_cases c2 : q.val < 64
    · refine (LibConcatCols.cols_piece _ _ r q 1 (by simp) 32 v103 rfl 32 (by simp) (by omega) (by omega)).trans ?_
      rw [h103]
      exact lstm_mi_eq mi _ _ _ _ (by show 1 = q.val / 32; omega) (by show q.val - 32 = q.val % 32; omega)
    · by_cases c3 : q.val < 96
      · refine (LibConcatCols.cols_piece _ _ r q 2 (by simp) 32 v105 rfl 64 (by simp) (by omega) (by omega)).trans ?_
        rw [h105]
        exact lstm_mi_eq mi _ _ _ _ (by show 2 = q.val / 32; omega) (by show q.val - 64 = q.val % 32; omega)
      · refine (LibConcatCols.cols_piece _ _ r q 3 (by simp) 32 v107 rfl 96 (by simp) (by omega) (by omega)).trans ?_
        rw [h107]
        exact lstm_mi_eq mi _ _ _ _ (by show 3 = q.val / 32; omega) (by show q.val - 96 = q.val % 32; omega)

/-- The 192-wide row: x in the first 64 columns, then the four messages. -/
theorem lstm_hm_read (k : Fin 192) :
    concatenate S2048x192 1
        [⟨S2048x64, v10⟩,
          ⟨S2048x128,
            concatenate S2048x128 1 [⟨S2048x32, v101⟩, ⟨S2048x32, v103⟩, ⟨S2048x32, v105⟩, ⟨S2048x32, v107⟩]
              concatenates_S2048x32_S2048x32_S2048x32_S2048x32_S2048x128_d1⟩]
        concatenates_S2048x64_S2048x128_S2048x192_d1 (ix2 r k)
      = Gnn.hm w o mi k := by
  have hk := k.isLt
  unfold Gnn.hm
  by_cases c : k.val < 64
  · rw [dif_pos c, ← hx]
    exact LibConcatCols.cols_piece _ _ r k 0 (by simp) 64 v10 rfl 0 rfl (Nat.zero_le _) c
  · rw [dif_neg c]
    refine (LibConcatCols.cols_piece _ _ r k 1 (by simp) 128 _ rfl 64 (by simp) (by omega) (by omega)).trans ?_
    exact lstm_msgs_read w r o mi v10 hx v101 v103 v105 v107 h101 h103 h105 h107 ⟨k.val - 64, by omega⟩

theorem pay14_apply (g : Fin 200) :
    k0_pay14 (F := Ideal) v10 v101 v103 v105 v107 w.Wih w.bih v118 w.Whh w.bhh (ix2 r g)
      = Gnn.gates w o mi (fun k => v118 (ix2 r k)) g := by
  unfold k0_pay14 Gnn.gates Gnn.dense
  dsimp only
  rw [addf_apply, addf_apply, addf_apply,
    show dot_S2048x192_S200x192_S2048x200_1_1_0_0_n_n = DotDims.transposedRhs 2048 192 200 from rfl,
    show dot_S2048x50_S200x50_S2048x200_1_1_0_0_n_n = DotDims.transposedRhs 2048 50 200 from rfl,
    LibDense.matmul_nt_apply, LibDense.matmul_nt_apply, LibDense.bias_row_apply, LibDense.bias_row_apply]
  have e : ∀ k : Fin 192,
      truncf FTy.bf16
          (concatenate S2048x192 1
            [⟨S2048x64, v10⟩,
              ⟨S2048x128,
                concatenate S2048x128 1 [⟨S2048x32, v101⟩, ⟨S2048x32, v103⟩, ⟨S2048x32, v105⟩, ⟨S2048x32, v107⟩]
                  concatenates_S2048x32_S2048x32_S2048x32_S2048x32_S2048x128_d1⟩]
            concatenates_S2048x64_S2048x128_S2048x192_d1)
          bitsLt_bf16_f32 (ix2 r k) * truncf FTy.bf16 w.Wih bitsLt_bf16_f32 (ix2 g k)
        = Gnn.hm w o mi k * w.Wih (ix2 g k) := fun k => by
    rw [truncf_apply, truncf_apply, lstm_hm_read w r o mi v10 hx v101 v103 v105 v107 h101 h103 h105 h107 k]
  rw [Finset.sum_congr rfl fun k _ => e k]
  rfl

/-- A 50-column window of the gates at column offset off. -/
theorem lstm_gates_slice (off : Nat) (h : S2048x200.Slices ![0, off] S2048x50) (j : Fin 50) (g : Fin 200)
    (hg : g.val = off + j.val) :
    extractStridedSlice S2048x50 ![0, off]
        (k0_pay14 (F := Ideal) v10 v101 v103 v105 v107 w.Wih w.bih v118 w.Whh w.bhh) h (ix2 r j)
      = Gnn.gates w o mi (fun k => v118 (ix2 r k)) g := by
  refine (extractStridedSlice_apply _ _ h (ix2 r j) (ix2 r g) (fun a => ?_)).trans
    (pay14_apply w r o mi v10 hx v101 v103 v105 v107 h101 h103 h105 h107 v118 g)
  match a with
  | ⟨0, _⟩ => show r.val = 0 + r.val; omega
  | ⟨1, _⟩ => exact hg

theorem pay15_apply (j : Fin 50) :
    k0_pay15 (F := Ideal) v10 v101 v103 v105 v107 w.Wih w.bih v118 w.Whh w.bhh v132 (ix2 r j)
      = Gnn.cnew w o mi (fun k => v118 (ix2 r k)) (fun k => v132 (ix2 r k)) j := by
  unfold k0_pay15 Gnn.cnew
  dsimp only
  rw [addf_apply, mulf_apply, mulf_apply, lstm_logistic_apply, lstm_logistic_apply, lstm_tanh_apply,
    lstm_gates_slice w r o mi v10 hx v101 v103 v105 v107 h101 h103 h105 h107 v118 50 slices_S2048x200_o0_50_S2048x50 j
      ⟨50 + j.val, by have := j.isLt; omega⟩ rfl,
    lstm_gates_slice w r o mi v10 hx v101 v103 v105 v107 h101 h103 h105 h107 v118 0 slices_S2048x200_o0_0_S2048x50 j
      ⟨j.val, by have := j.isLt; omega⟩ (by show j.val = 0 + j.val; omega),
    lstm_gates_slice w r o mi v10 hx v101 v103 v105 v107 h101 h103 h105 h107 v118 100 slices_S2048x200_o0_100_S2048x50 j
      ⟨100 + j.val, by have := j.isLt; omega⟩ rfl]
  rfl

theorem pay16_apply (j : Fin 50) :
    k0_pay16 (F := Ideal) v10 v101 v103 v105 v107 w.Wih w.bih v118 w.Whh w.bhh v132 (ix2 r j)
      = Gnn.hnew w o mi (fun k => v118 (ix2 r k)) (fun k => v132 (ix2 r k)) j := by
  unfold k0_pay16 Gnn.hnew
  rw [mulf_apply, lstm_logistic_apply, lstm_tanh_apply,
    lstm_gates_slice w r o mi v10 hx v101 v103 v105 v107 h101 h103 h105 h107 v118 150 slices_S2048x200_o0_150_S2048x50 j
      ⟨150 + j.val, by have := j.isLt; omega⟩ rfl,
    pay15_apply w r o mi v10 hx v101 v103 v105 v107 h101 h103 h105 h107 v118 v132 j]
  rfl

theorem pay17_apply (j : Fin 100) :
    k0_pay17 (F := Ideal) v10 v101 v103 v105 v107 w.Wih w.bih v118 w.Whh w.bhh v132 w.Wu1 w.bu1 (ix2 r j)
      = Gnn.dense (Gnn.hnew w o mi (fun k => v118 (ix2 r k)) (fun k => v132 (ix2 r k))) w.Wu1 w.bu1 j := by
  unfold k0_pay17 Gnn.dense
  rw [addf_apply,
    show dot_S2048x50_S100x50_S2048x100_1_1_0_0_n_n = DotDims.transposedRhs 2048 50 100 from rfl,
    LibDense.matmul_nt_apply, LibDense.bias_row_apply]
  have e : ∀ k : Fin 50,
      truncf FTy.bf16 (k0_pay16 (F := Ideal) v10 v101 v103 v105 v107 w.Wih w.bih v118 w.Whh w.bhh v132) bitsLt_bf16_f32 (ix2 r k)
          * truncf FTy.bf16 w.Wu1 bitsLt_bf16_f32 (ix2 j k)
        = Gnn.hnew w o mi (fun k => v118 (ix2 r k)) (fun k => v132 (ix2 r k)) k * w.Wu1 (ix2 j k) := fun k => by
    rw [truncf_apply, truncf_apply, pay16_apply w r o mi v10 hx v101 v103 v105 v107 h101 h103 h105 h107 v118 v132 k]
  rw [Finset.sum_congr rfl fun k _ => e k]
end Lstm

end Cert.KernelIdeal.Body

end
-- ==== Proof.KHead.lean ====
/-
  The kernel body's last layers at one row of a block: the update network h2, the heads mu and lv, the argument
  maxlv − lv of the first softplus, then the soft clamp, its exponential, and the concatenation of the six output pieces
  of widths 16, 16, 128, 64, 50, 50, which is the specification's output row.
-/
import proofs.«136165_j65618510348951_1_alg».proof.Proof.Gen.KernelIdeal.Frame
import proofs.«136165_j65618510348951_1_alg».proof.Proof.Spec
import proofs.«136165_j65618510348951_1_alg».proof.Proof.LibDense
import proofs.«136165_j65618510348951_1_alg».proof.Proof.LibConcatCols

noncomputable section

namespace Cert.KernelIdeal.Body

open Idealize.ShloMosaic Idealize.ShloMosaic.ValueIdx Cert.KernelIdeal Cert.KernelIdeal.Gen Cert

variable (w : Gnn.Weights) (r : Fin 2048)

/-- One row [1, N] repeated down M rows reads, at (e, k), the row's entry k. -/
theorem row_repeat_apply {α : Type} {M N : Nat} (x : (⟨2, ![1, N]⟩ : Shape).Idx → α)
    (h2 : (⟨2, ![1, N]⟩ : Shape).Broadcasts ⟨2, ![M, N]⟩) (e : Fin M) (k : Fin N) :
    broadcastTo ⟨2, ![M, N]⟩ x h2 (ix2 e k) = x (ix2 (0 : Fin 1) k) :=
  broadcastTo_apply x h2 (ix2 e k) (ix2 (0 : Fin 1) k) (fun a => by
    match a with
    | ⟨0, _⟩ => simp [ix2]
    | ⟨1, _⟩ =>
      by_cases hN : N = 1
      · have := k.isLt; simp [ix2, hN]; omega
      · simp [ix2, hN])

section Head
variable (o : Fin 32 → EReal) (mi : Fin 4 → Fin 32 → EReal) (h c : Fin 50 → EReal)
  (v149 : FVec Ideal S2048x100 .f32) (h149 : ∀ j, v149 (ix2 r j) = Gnn.dense (Gnn.hnew w o mi h c) w.Wu1 w.bu1 j)
include h149

theorem pay19_apply (j : Fin 64) :
    k0_pay19 (F := Ideal) v149 (k0_pay18 (F := Ideal)) w.Wu2 w.bu2 w.Wu3 w.bu3 (ix2 r j) = Gnn.h2 w o mi h c j := by
  unfold k0_pay19 Gnn.h2 Gnn.dense
  rw [addf_apply,
    show dot_S2048x100_S64x100_S2048x64_1_1_0_0_n_n = DotDims.transposedRhs 2048 100 64 from rfl,
    LibDense.matmul_nt_apply, LibDense.bias_row_apply]
  refine congrArg (· + w.bu3 (ix1 j)) (Finset.sum_congr rfl fun k _ => ?_)
  rw [truncf_apply, truncf_apply, maximumf_apply, addf_apply, broadcast_apply,
    show dot_S2048x100_S100x100_S2048x100_1_1_0_0_n_n = DotDims.transposedRhs 2048 100 100 from rfl,
    LibDense.matmul_nt_apply, LibDense.bias_row_apply]
  unfold Gnn.u2 Gnn.dense
  refine congrArg (fun t => max (t + w.bu2 (ix1 k)) Gnn.Z * w.Wu3 (ix2 j k)) (Finset.sum_congr rfl fun l _ => ?_)
  rw [truncf_apply, truncf_apply, maximumf_apply, h149]
  rfl

theorem pay20_apply (j : Fin 16) :
    k0_pay20 (F := Ideal) v149 (k0_pay18 (F := Ideal)) w.Wu2 w.bu2 w.Wu3 w.bu3 w.Wmu w.bmu (ix2 r j) = Gnn.mu w o mi h c j := by
  unfold k0_pay20 Gnn.mu Gnn.dense
  rw [addf_apply,
    show dot_S2048x64_S16x64_S2048x16_1_1_0_0_n_n = DotDims.transposedRhs 2048 64 16 from rfl,
    LibDense.matmul_nt_apply, LibDense.bias_row_apply]
  refine congrArg (· + w.bmu (ix1 j)) (Finset.sum_congr rfl fun k _ => ?_)
  rw [truncf_apply, truncf_apply, pay19_apply w r o mi h c v149 h149]

theorem pay21_apply (j : Fin 16) :
    k0_pay21 (F := Ideal) v149 (k0_pay18 (F := Ideal)) w.Wu2 w.bu2 w.Wu3 w.bu3 w.Wvar w.bvar w.maxlv (ix2 r j) = Gnn.a1 w o mi h c j := by
  unfold k0_pay21 Gnn.a1 Gnn.lv Gnn.dense
  rw [subf_apply, addf_apply,
    show dot_S2048x64_S16x64_S2048x16_1_1_0_0_n_n = DotDims.transposedRhs 2048 64 16 from rfl,
    LibDense.matmul_nt_apply, LibDense.bias_row_apply, row_repeat_apply]
  refine congrArg (fun t => w.maxlv (ix2 (0 : Fin 1) j) - (t + w.bvar (ix1 j))) (Finset.sum_congr rfl fun k _ => ?_)
  rw [truncf_apply, truncf_apply, pay19_apply w r o mi h c v149 h149]

theorem pay1_apply (v99 : FVec Ideal S2048x128 .f32) (v138 v141 : FVec Ideal S2048x50 .f32) (v169 : FVec Ideal S2048x64 .f32)
    (v177 v189 : FVec Ideal S2048x16 .f32)
    (h99 : ∀ q : Fin 128, v99 (ix2 r q) = Gnn.op w o ⟨q.val / 32, by have := q.isLt; omega⟩ ⟨q.val % 32, Nat.mod_lt _ (by decide)⟩)
    (h138 : ∀ j, v138 (ix2 r j) = Gnn.cnew w o mi h c j) (h141 : ∀ j, v141 (ix2 r j) = Gnn.hnew w o mi h c j)
    (h169 : ∀ j, v169 (ix2 r j) = Gnn.h2 w o mi h c j) (h177 : ∀ j, v177 (ix2 r j) = Gnn.mu w o mi h c j)
    (h189 : ∀ j, v189 (ix2 r j) = Gnn.a1 w o mi h c j) (j : Fin 324) :
    k0_pay1 (F := Ideal) v99 v138 v141 v169 v177 w.maxlv w.minlv v189 (ix2 r j) = Gnn.out w o mi h c j := by
  unfold k0_pay1 Gnn.out
  by_cases q1 : j.val < 16
  · rw [dif_pos q1]
    refine Eq.trans (LibConcatCols.cols_piece _ _ r j 0 (by simp) 16 v177 (by rfl) 0 (by rfl) (Nat.zero_le _) (by omega)) ?_
    exact h177 _
  rw [dif_neg q1]
  by_cases q2 : j.val < 32
  · rw [dif_pos q2]
    refine Eq.trans (LibConcatCols.cols_piece _ _ r j 1 (by simp) 16 _ (by rfl) 16 (by rfl) (by omega) (by omega)) ?_
    show Ideal.exp (broadcastTo S2048x16 w.minlv _ (ix2 r _)
      + Gnn.softplus ((broadcastTo S2048x16 w.maxlv _ (ix2 r _) - Gnn.softplus (v189 (ix2 r _)))
          - broadcastTo S2048x16 w.minlv _ (ix2 r _))) = _
    rw [row_repeat_apply, row_repeat_apply, h189]
    rfl
  rw [dif_neg q2]
  by_cases q3 : j.val < 160
  · rw [dif_pos q3]
    refine Eq.trans (LibConcatCols.cols_piece _ _ r j 2 (by simp) 128 v99 (by rfl) 32 (by rfl) (by omega) (by omega)) ?_
    exact h99 _
  rw [dif_neg q3]
  by_cases q4 : j.val < 224
  · rw [dif_pos q4]
    refine Eq.trans (LibConcatCols.cols_piece _ _ r j 3 (by simp) 64 v169 (by rfl) 160 (by rfl) (by omega) (by omega)) ?_
    exact h169 _
  rw [dif_neg q4]
  by_cases q5 : j.val < 274
  · rw [dif_pos q5]
    refine Eq.trans (LibConcatCols.cols_piece _ _ r j 4 (by simp) 50 v141 (by rfl) 224 (by rfl) (by omega) (by omega)) ?_
    exact h141 _
  rw [dif_neg q5]
  refine Eq.trans (LibConcatCols.cols_piece _ _ r j 5 (by simp) 50 v138 (by rfl) 274 (by rfl) (by omega) (by have := j.isLt; omega)) ?_
  exact h138 _

end Head

end Cert.KernelIdeal.Body

end
-- ==== Proof.KBlock.lean ====
/-
  One block of the kernel's result, entry by entry.

  At a grid point the body leaves in the output window's buffer one [2048, 324] block, stored whole.  Reading the body's
  arithmetic layer by layer, entry (r, j) of that block is the row function of the specification at the r-th rows of the
  four batched input blocks: the weights' blocks are the whole weight arrays.
-/
import proofs.«136165_j65618510348951_1_alg».proof.Proof.KMsg
import proofs.«136165_j65618510348951_1_alg».proof.Proof.KLstm
import proofs.«136165_j65618510348951_1_alg».proof.Proof.KHead

noncomputable section

namespace Cert.KernelIdeal.Body

open Idealize.ShloMosaic Idealize.ShloMosaic.ValueIdx Cert.KernelIdeal Cert.KernelIdeal.Gen Cert

theorem zeros2 : (![0, 0] : Fin 2 → Nat) = fun _ => 0 := funext fun a => by fin_cases a <;> rfl
theorem zeros1 : (![0] : Fin 1 → Nat) = fun _ => 0 := funext fun a => by fin_cases a; rfl

variable (w : Gnn.Weights)

/-- Entry (r, j) of the block the body stores, from the input blocks x0 … x3 and the weights. -/
theorem block_apply (x0 : Vec Ideal S2048x32 .f32) (x1 : Vec Ideal S4x2048x32 .f32) (x2 x3 : Vec Ideal S2048x50 .f32)
    (r : Fin 2048) (j : Fin 324) :
    out0_26 (F := Ideal) x0 x1 x2 x3 w.Win w.bin w.W1 w.b1 w.W2 w.b2 w.Wih w.Whh w.bih w.bhh w.Wu1 w.bu1 w.Wu2 w.bu2 w.Wu3 w.bu3
        w.Wmu w.bmu w.Wvar w.bvar w.maxlv w.minlv (ix2 r j)
      = Gnn.out w (fun k => x0 (ix2 r k)) (fun p k => x1 (ix3 p r k)) (fun k => x2 (ix2 r k)) (fun k => x3 (ix2 r k)) j := by
  unfold out0_26
  rw [View.canon_unit_zero zeros2]
  simp only [View.ld_unit_zero (S := S2048x32) zeros2, View.ld_unit_zero (S := S64x32) zeros2, View.ld_unit_zero (S := S64) zeros1,
    View.ld_unit_zero (S := S200x192) zeros2, View.ld_unit_zero (S := S200) zeros1, View.ld_unit_zero (S := S2048x50) zeros2,
    View.ld_unit_zero (S := S200x50) zeros2, View.ld_unit_zero (S := S100x50) zeros2, View.ld_unit_zero (S := S100) zeros1,
    View.ld_unit_zero (S := S100x100) zeros2, View.ld_unit_zero (S := S64x100) zeros2, View.ld_unit_zero (S := S16x64) zeros2,
    View.ld_unit_zero (S := S16) zeros1, View.ld_unit_zero (S := S1x16) zeros2]
  have hx := fun s => pay2_apply w r x0 s
  have h149 := fun i => pay17_apply w r (fun k => x0 (ix2 r k)) (fun p k => x1 (ix3 p r k)) _ hx
    (k0_pay10 (View.ld x1 r0_19)) (k0_pay11 (View.ld x1 r0_20)) (k0_pay12 (View.ld x1 r0_21)) (k0_pay13 (View.ld x1 r0_22))
    (fun k => pay10_apply r x1 k) (fun k => pay11_apply r x1 k) (fun k => pay12_apply r x1 k) (fun k => pay13_apply r x1 k) x2 x3 i
  exact pay1_apply (w := w) (r := r) (o := (fun k => x0 (ix2 r k))) (mi := (fun p k => x1 (ix3 p r k))) (h := (fun k => x2 (ix2 r k))) (c := (fun k => x3 (ix2 r k))) (v149 := _) (h149 := h149)
    (v99 := _) (v138 := _) (v141 := _) (v169 := _) (v177 := _) (v189 := _)
    (h99 := fun q => pay9_apply w r (fun k => x0 (ix2 r k)) _ hx _ _ (fun m => pay3_apply w r x0 m)
      (fun m => pay5_apply w r (fun k => x0 (ix2 r k)) _ hx m) q)
    (h138 := fun i => pay15_apply w r (fun k => x0 (ix2 r k)) (fun p k => x1 (ix3 p r k)) _ hx
      (k0_pay10 (View.ld x1 r0_19)) (k0_pay11 (View.ld x1 r0_20)) (k0_pay12 (View.ld x1 r0_21)) (k0_pay13 (View.ld x1 r0_22))
      (fun k => pay10_apply r x1 k) (fun k => pay11_apply r x1 k) (fun k => pay12_apply r x1 k) (fun k => pay13_apply r x1 k) x2 x3 i)
    (h141 := fun i => pay16_apply w r (fun k => x0 (ix2 r k)) (fun p k => x1 (ix3 p r k)) _ hx
      (k0_pay10 (View.ld x1 r0_19)) (k0_pay11 (View.ld x1 r0_20)) (k0_pay12 (View.ld x1 r0_21)) (k0_pay13 (View.ld x1 r0_22))
      (fun k => pay10_apply r x1 k) (fun k => pay11_apply r x1 k) (fun k => pay12_apply r x1 k) (fun k => pay13_apply r x1 k) x2 x3 i)
    (h169 := fun i => pay19_apply (w := w) (r := r) (o := (fun k => x0 (ix2 r k))) (mi := (fun p k => x1 (ix3 p r k))) (h := (fun k => x2 (ix2 r k))) (c := (fun k => x3 (ix2 r k))) (v149 := _) (h149 := h149) i)
    (h177 := fun i => pay20_apply (w := w) (r := r) (o := (fun k => x0 (ix2 r k))) (mi := (fun p k => x1 (ix3 p r k))) (h := (fun k => x2 (ix2 r k))) (c := (fun k => x3 (ix2 r k))) (v149 := _) (h149 := h149) i)
    (h189 := fun i => pay21_apply (w := w) (r := r) (o := (fun k => x0 (ix2 r k))) (mi := (fun p k => x1 (ix3 p r k))) (h := (fun k => x2 (ix2 r k))) (c := (fun k => x3 (ix2 r k))) (v149 := _) (h149 := h149) i) j

end Cert.KernelIdeal.Body

end
-- ==== Proof.KWhole.lean ====
/-
  The kernel's result array after the run, as one function of the argument arrays.

  The grid has 128 points; point t stages rows 2048 t … 2048 t + 2047 of the four batched inputs (all four ports of the
  incoming messages) and the whole of every weight array, and writes back rows 2048 t … 2048 t + 2047 of the result.  So
  the blocks written back tile the [262144, 324] result, and entry (i, j) is the row function at row i of the inputs.
-/
import proofs.«136165_j65618510348951_1_alg».proof.Proof.Gen.KernelIdeal.Value
import proofs.«136165_j65618510348951_1_alg».proof.Proof.KBlock

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Body Cert
open Idealize.ShloMosaic.Pipeline (Dat)

variable (m : (ℓ : Loc nD τ sig) → Buf (Elt Ideal) ℓ) (ρ : Dev nD → PrngReg)

/-- The weight arrays as the region finds them. -/
def wts (c : Dev nD) : Gnn.Weights :=
  Gnn.Weights.mk (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)

/-- The result array: entry (i, j) is the row function at row i of the four batched inputs. -/
def G (c : Dev nD) : S262144x324.Idx → EReal := fun i =>
  Gnn.out (wts m c) (fun k => V m c main_arg0 (ix2 (i 0) k)) (fun p k => V m c main_arg1 (ix3 p (i 0) k))
    (fun k => V m c main_arg2 (ix2 (i 0) k)) (fun k => V m c main_arg3 (ix2 (i 0) k)) (i 1)

/-- Where each window's block sits at grid point t: the four batched inputs and the result move down the rows with t. -/
theorem idx_rows : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_26.index t (0 : Fin 2) = t.val ∧ win0_26.index t (1 : Fin 2) = 0) :=
  (by decide +kernel : ∀ t : Fin grid0.N, _)

/-- Row r of the observations' block at point t is row 2048 t + r of the array. -/
theorem iblk0_apply (c : Dev nD) (t : Fin cfg0.N) (r : Fin 2048) (k : Fin 32) (i : Fin 262144) (hi : i.val = 2048 * t.val + r.val) :
    (iblk m c 0 t : Vec Ideal S2048x32 .f32) (ix2 r k) = V m c main_arg0 (ix2 i k) := by
  obtain ⟨⟨e0, e1⟩, -⟩ := idx_rows t
  unfold iblk
  rw [View.read_apply]
  show V m c main_arg0 _ = V m c main_arg0 _
  congr 1
  funext a
  apply Fin.ext
  match a with
  | ⟨0, _⟩ => show win0_0.index t 0 * 2048 + 1 * r.val = i.val; rw [e0, hi]; omega
  | ⟨1, _⟩ => show win0_0.index t 1 * 32 + 1 * k.val = k.val; rw [e1]; omega

/-- The incoming messages' block holds all four ports of the same rows. -/
theorem iblk1_apply (c : Dev nD) (t : Fin cfg0.N) (p : Fin 4) (r : Fin 2048) (k : Fin 32) (i : Fin 262144) (hi : i.val = 2048 * t.val + r.val) :
    (iblk m c 1 t : Vec Ideal S4x2048x32 .f32) (ix3 p r k) = V m c main_arg1 (ix3 p i k) := by
  obtain ⟨-, ⟨e0, e1, e2⟩, -⟩ := idx_rows t
  unfold iblk
  rw [View.read_apply]
  show V m c main_arg1 _ = V m c main_arg1 _
  congr 1
  funext a
  apply Fin.ext
  match a with
  | ⟨0, _⟩ => show win0_1.index t 0 * 4 + 1 * p.val = p.val; rw [e0]; omega
  | ⟨1, _⟩ => show win0_1.index t 1 * 2048 + 1 * r.val = i.val; rw [e1, hi]; omega
  | ⟨2, _⟩ => show win0_1.index t 2 * 32 + 1 * k.val = k.val; rw [e2]; omega

/-- The recurrent state's and the cell's blocks, likewise. -/
theorem iblk2_apply (c : Dev nD) (t : Fin cfg0.N) (r : Fin 2048) (k : Fin 50) (i : Fin 262144) (hi : i.val = 2048 * t.val + r.val) :
    (iblk m c 2 t : Vec Ideal S2048x50 .f32) (ix2 r k) = V m c main_arg2 (ix2 i k) := by
  obtain ⟨-, -, ⟨e0, e1⟩, -⟩ := idx_rows t
  unfold iblk
  rw [View.read_apply]
  show V m c main_arg2 _ = V m c main_arg2 _
  congr 1
  funext a
  apply Fin.ext
  match a with
  | ⟨0, _⟩ => show win0_2.index t 0 * 2048 + 1 * r.val = i.val; rw [e0, hi]; omega
  | ⟨1, _⟩ => show win0_2.index t 1 * 50 + 1 * k.val = k.val; rw [e1]; omega

theorem iblk3_apply (c : Dev nD) (t : Fin cfg0.N) (r : Fin 2048) (k : Fin 50) (i : Fin 262144) (hi : i.val = 2048 * t.val + r.val) :
    (iblk m c 3 t : Vec Ideal S2048x50 .f32) (ix2 r k) = V m c main_arg3 (ix2 i k) := by
  obtain ⟨-, -, -, ⟨e0, e1⟩, -⟩ := idx_rows t
  unfold iblk
  rw [View.read_apply]
  show V m c main_arg3 _ = V m c main_arg3 _
  congr 1
  funext a
  apply Fin.ext
  match a with
  | ⟨0, _⟩ => show win0_3.index t 0 * 2048 + 1 * r.val = i.val; rw [e0, hi]; omega
  | ⟨1, _⟩ => show win0_3.index t 1 * 50 + 1 * k.val = k.val; rw [e1]; omega

/-! Every weight window has one block, the whole array, at every point. -/

theorem idx_w4 : ∀ t : Fin cfg0.N, ∀ a, win0_4.index t a = 0 :=
  (by decide +kernel : ∀ t : Fin grid0.N, ∀ a, win0_4.index t a = 0)
theorem iblk4_eq (c : Dev nD) (t : Fin cfg0.N) : (iblk m c 4 t : Vec Ideal S64x32 .f32) = V m c main_arg4 :=
  Memref.read_access_unit_zero (Elt Ideal) main_arg4 (funext fun a => by rw [idx_w4 t a]; exact Nat.zero_mul _)
    (fun a => by rw [idx_w4 t a, Nat.zero_mul, Nat.zero_add]) (V m c main_arg4)

theorem idx_w5 : ∀ t : Fin cfg0.N, ∀ a, win0_5.index t a = 0 :=
  (by decide +kernel : ∀ t : Fin grid0.N, ∀ a, win0_5.index t a = 0)
theorem iblk5_eq (c : Dev nD) (t : Fin cfg0.N) : (iblk m c 5 t : Vec Ideal S64 .f32) = V m c main_arg5 :=
  Memref.read_access_unit_zero (Elt Ideal) main_arg5 (funext fun a => by rw [idx_w5 t a]; exact Nat.zero_mul _)
    (fun a => by rw [idx_w5 t a, Nat.zero_mul, Nat.zero_add]) (V m c main_arg5)

theorem idx_w6 : ∀ t : Fin cfg0.N, ∀ a, win0_6.index t a = 0 :=
  (by decide +kernel : ∀ t : Fin grid0.N, ∀ a, win0_6.index t a = 0)
theorem iblk6_eq (c : Dev nD) (t : Fin cfg0.N) : (iblk m c 6 t : Vec Ideal S4x100x64 .f32) = V m c main_arg6 :=
  Memref.read_access_unit_zero (Elt Ideal) main_arg6 (funext fun a => by rw [idx_w6 t a]; exact Nat.zero_mul _)
    (fun a => by rw [idx_w6 t a, Nat.zero_mul, Nat.zero_add]) (V m c main_arg6)

theorem idx_w7 : ∀ t : Fin cfg0.N, ∀ a, win0_7.index t a = 0 :=
  (by decide +kernel : ∀ t : Fin grid0.N, ∀ a, win0_7.index t a = 0)
theorem iblk7_eq (c : Dev nD) (t : Fin cfg0.N) : (iblk m c 7 t : Vec Ideal S4x100 .f32) = V m c main_arg7 :=
  Memref.read_access_unit_zero (Elt Ideal) main_arg7 (funext fun a => by rw [idx_w7 t a]; exact Nat.zero_mul _)
    (fun a => by rw [idx_w7 t a, Nat.zero_mul, Nat.zero_add]) (V m c main_arg7)

theorem idx_w8 : ∀ t : Fin cfg0.N, ∀ a, win0_8.index t a = 0 :=
  (by decide +kernel : ∀ t : Fin grid0.N, ∀ a, win0_8.index t a = 0)
theorem iblk8_eq (c : Dev nD) (t : Fin cfg0.N) : (iblk m c 8 t : Vec Ideal S4x32x100 .f32) = V m c main_arg8 :=
  Memref.read_access_unit_zero (Elt Ideal) main_arg8 (funext fun a => by rw [idx_w8 t a]; exact Nat.zero_mul _)
    (fun a => by rw [idx_w8 t a, Nat.zero_mul, Nat.zero_add]) (V m c main_arg8)

theorem idx_w9 : ∀ t : Fin cfg0.N, ∀ a, win0_9.index t a = 0 :=
  (by decide +kernel : ∀ t : Fin grid0.N, ∀ a, win0_9.index t a = 0)
theorem iblk9_eq (c : Dev nD) (t : Fin cfg0.N) : (iblk m c 9 t : Vec Ideal S4x32 .f32) = V m c main_arg9 :=
  Memref.read_access_unit_zero (Elt Ideal) main_arg9 (funext fun a => by rw [idx_w9 t a]; exact Nat.zero_mul _)
    (fun a => by rw [idx_w9 t a, Nat.zero_mul, Nat.zero_add]) (V m c main_arg9)

theorem idx_w10 : ∀ t : Fin cfg0.N, ∀ a, win0_10.index t a = 0 :=
  (by decide +kernel : ∀ t : Fin grid0.N, ∀ a, win0_10.index t a = 0)
theorem iblk10_eq (c : Dev nD) (t : Fin cfg0.N) : (iblk m c 10 t : Vec Ideal S200x192 .f32) = V m c main_arg10 :=
  Memref.read_access_unit_zero (Elt Ideal) main_arg10 (funext fun a => by rw [idx_w10 t a]; exact Nat.zero_mul _)
    (fun a => by rw [idx_w10 t a, Nat.zero_mul, Nat.zero_add]) (V m c main_arg10)

theorem idx_w11 : ∀ t : Fin cfg0.N, ∀ a, win0_11.index t a = 0 :=
  (by decide +kernel : ∀ t : Fin grid0.N, ∀ a, win0_11.index t a = 0)
theorem iblk11_eq (c : Dev nD) (t : Fin cfg0.N) : (iblk m c 11 t : Vec Ideal S200x50 .f32) = V m c main_arg11 :=
  Memref.read_access_unit_zero (Elt Ideal) main_arg11 (funext fun a => by rw [idx_w11 t a]; exact Nat.zero_mul _)
    (fun a => by rw [idx_w11 t a, Nat.zero_mul, Nat.zero_add]) (V m c main_arg11)

theorem idx_w12 : ∀ t : Fin cfg0.N, ∀ a, win0_12.index t a = 0 :=
  (by decide +kernel : ∀ t : Fin grid0.N, ∀ a, win0_12.index t a = 0)
theorem iblk12_eq (c : Dev nD) (t : Fin cfg0.N) : (iblk m c 12 t : Vec Ideal S200 .f32) = V m c main_arg12 :=
  Memref.read_access_unit_zero (Elt Ideal) main_arg12 (funext fun a => by rw [idx_w12 t a]; exact Nat.zero_mul _)
    (fun a => by rw [idx_w12 t a, Nat.zero_mul, Nat.zero_add]) (V m c main_arg12)

theorem idx_w13 : ∀ t : Fin cfg0.N, ∀ a, win0_13.index t a = 0 :=
  (by decide +kernel : ∀ t : Fin grid0.N, ∀ a, win0_13.index t a = 0)
theorem iblk13_eq (c : Dev nD) (t : Fin cfg0.N) : (iblk m c 13 t : Vec Ideal S200 .f32) = V m c main_arg13 :=
  Memref.read_access_unit_zero (Elt Ideal) main_arg13 (funext fun a => by rw [idx_w13 t a]; exact Nat.zero_mul _)
    (fun a => by rw [idx_w13 t a, Nat.zero_mul, Nat.zero_add]) (V m c main_arg13)

theorem idx_w14 : ∀ t : Fin cfg0.N, ∀ a, win0_14.index t a = 0 :=
  (by decide +kernel : ∀ t : Fin grid0.N, ∀ a, win0_14.index t a = 0)
theorem iblk14_eq (c : Dev nD) (t : Fin cfg0.N) : (iblk m c 14 t : Vec Ideal S100x50 .f32) = V m c main_arg14 :=
  Memref.read_access_unit_zero (Elt Ideal) main_arg14 (funext fun a => by rw [idx_w14 t a]; exact Nat.zero_mul _)
    (fun a => by rw [idx_w14 t a, Nat.zero_mul, Nat.zero_add]) (V m c main_arg14)

theorem idx_w15 : ∀ t : Fin cfg0.N, ∀ a, win0_15.index t a = 0 :=
  (by decide +kernel : ∀ t : Fin grid0.N, ∀ a, win0_15.index t a = 0)
theorem iblk15_eq (c : Dev nD) (t : Fin cfg0.N) : (iblk m c 15 t : Vec Ideal S100 .f32) = V m c main_arg15 :=
  Memref.read_access_unit_zero (Elt Ideal) main_arg15 (funext fun a => by rw [idx_w15 t a]; exact Nat.zero_mul _)
    (fun a => by rw [idx_w15 t a, Nat.zero_mul, Nat.zero_add]) (V m c main_arg15)

theorem idx_w16 : ∀ t : Fin cfg0.N, ∀ a, win0_16.index t a = 0 :=
  (by decide +kernel : ∀ t : Fin grid0.N, ∀ a, win0_16.index t a = 0)
theorem iblk16_eq (c : Dev nD) (t : Fin cfg0.N) : (iblk m c 16 t : Vec Ideal S100x100 .f32) = V m c main_arg16 :=
  Memref.read_access_unit_zero (Elt Ideal) main_arg16 (funext fun a => by rw [idx_w16 t a]; exact Nat.zero_mul _)
    (fun a => by rw [idx_w16 t a, Nat.zero_mul, Nat.zero_add]) (V m c main_arg16)

theorem idx_w17 : ∀ t : Fin cfg0.N, ∀ a, win0_17.index t a = 0 :=
  (by decide +kernel : ∀ t : Fin grid0.N, ∀ a, win0_17.index t a = 0)
theorem iblk17_eq (c : Dev nD) (t : Fin cfg0.N) : (iblk m c 17 t : Vec Ideal S100 .f32) = V m c main_arg17 :=
  Memref.read_access_unit_zero (Elt Ideal) main_arg17 (funext fun a => by rw [idx_w17 t a]; exact Nat.zero_mul _)
    (fun a => by rw [idx_w17 t a, Nat.zero_mul, Nat.zero_add]) (V m c main_arg17)

theorem idx_w18 : ∀ t : Fin cfg0.N, ∀ a, win0_18.index t a = 0 :=
  (by decide +kernel : ∀ t : Fin grid0.N, ∀ a, win0_18.index t a = 0)
theorem iblk18_eq (c : Dev nD) (t : Fin cfg0.N) : (iblk m c 18 t : Vec Ideal S64x100 .f32) = V m c main_arg18 :=
  Memref.read_access_unit_zero (Elt Ideal) main_arg18 (funext fun a => by rw [idx_w18 t a]; exact Nat.zero_mul _)
    (fun a => by rw [idx_w18 t a, Nat.zero_mul, Nat.zero_add]) (V m c main_arg18)

theorem idx_w19 : ∀ t : Fin cfg0.N, ∀ a, win0_19.index t a = 0 :=
  (by decide +kernel : ∀ t : Fin grid0.N, ∀ a, win0_19.index t a = 0)
theorem iblk19_eq (c : Dev nD) (t : Fin cfg0.N) : (iblk m c 19 t : Vec Ideal S64 .f32) = V m c main_arg19 :=
  Memref.read_access_unit_zero (Elt Ideal) main_arg19 (funext fun a => by rw [idx_w19 t a]; exact Nat.zero_mul _)
    (fun a => by rw [idx_w19 t a, Nat.zero_mul, Nat.zero_add]) (V m c main_arg19)

theorem idx_w20 : ∀ t : Fin cfg0.N, ∀ a, win0_20.index t a = 0 :=
  (by decide +kernel : ∀ t : Fin grid0.N, ∀ a, win0_20.index t a = 0)
theorem iblk20_eq (c : Dev nD) (t : Fin cfg0.N) : (iblk m c 20 t : Vec Ideal S16x64 .f32) = V m c main_arg20 :=
  Memref.read_access_unit_zero (Elt Ideal) main_arg20 (funext fun a => by rw [idx_w20 t a]; exact Nat.zero_mul _)
    (fun a => by rw [idx_w20 t a, Nat.zero_mul, Nat.zero_add]) (V m c main_arg20)

theorem idx_w21 : ∀ t : Fin cfg0.N, ∀ a, win0_21.index t a = 0 :=
  (by decide +kernel : ∀ t : Fin grid0.N, ∀ a, win0_21.index t a = 0)
theorem iblk21_eq (c : Dev nD) (t : Fin cfg0.N) : (iblk m c 21 t : Vec Ideal S16 .f32) = V m c main_arg21 :=
  Memref.read_access_unit_zero (Elt Ideal) main_arg21 (funext fun a => by rw [idx_w21 t a]; exact Nat.zero_mul _)
    (fun a => by rw [idx_w21 t a, Nat.zero_mul, Nat.zero_add]) (V m c main_arg21)

theorem idx_w22 : ∀ t : Fin cfg0.N, ∀ a, win0_22.index t a = 0 :=
  (by decide +kernel : ∀ t : Fin grid0.N, ∀ a, win0_22.index t a = 0)
theorem iblk22_eq (c : Dev nD) (t : Fin cfg0.N) : (iblk m c 22 t : Vec Ideal S16x64 .f32) = V m c main_arg22 :=
  Memref.read_access_unit_zero (Elt Ideal) main_arg22 (funext fun a => by rw [idx_w22 t a]; exact Nat.zero_mul _)
    (fun a => by rw [idx_w22 t a, Nat.zero_mul, Nat.zero_add]) (V m c main_arg22)

theorem idx_w23 : ∀ t : Fin cfg0.N, ∀ a, win0_23.index t a = 0 :=
  (by decide +kernel : ∀ t : Fin grid0.N, ∀ a, win0_23.index t a = 0)
theorem iblk23_eq (c : Dev nD) (t : Fin cfg0.N) : (iblk m c 23 t : Vec Ideal S16 .f32) = V m c main_arg23 :=
  Memref.read_access_unit_zero (Elt Ideal) main_arg23 (funext fun a => by rw [idx_w23 t a]; exact Nat.zero_mul _)
    (fun a => by rw [idx_w23 t a, Nat.zero_mul, Nat.zero_add]) (V m c main_arg23)

theorem idx_w24 : ∀ t : Fin cfg0.N, ∀ a, win0_24.index t a = 0 :=
  (by decide +kernel : ∀ t : Fin grid0.N, ∀ a, win0_24.index t a = 0)
theorem iblk24_eq (c : Dev nD) (t : Fin cfg0.N) : (iblk m c 24 t : Vec Ideal S1x16 .f32) = V m c main_arg24 :=
  Memref.read_access_unit_zero (Elt Ideal) main_arg24 (funext fun a => by rw [idx_w24 t a]; exact Nat.zero_mul _)
    (fun a => by rw [idx_w24 t a, Nat.zero_mul, Nat.zero_add]) (V m c main_arg24)

theorem idx_w25 : ∀ t : Fin cfg0.N, ∀ a, win0_25.index t a = 0 :=
  (by decide +kernel : ∀ t : Fin grid0.N, ∀ a, win0_25.index t a = 0)
theorem iblk25_eq (c : Dev nD) (t : Fin cfg0.N) : (iblk m c 25 t : Vec Ideal S1x16 .f32) = V m c main_arg25 :=
  Memref.read_access_unit_zero (Elt Ideal) main_arg25 (funext fun a => by rw [idx_w25 t a]; exact Nat.zero_mul _)
    (fun a => by rw [idx_w25 t a, Nat.zero_mul, Nat.zero_add]) (V m c main_arg25)

/-- The block function at weight blocks that are the weight arrays. -/
theorem block_apply_of (w : Gnn.Weights) (x0 : Vec Ideal S2048x32 .f32) (x1 : Vec Ideal S4x2048x32 .f32) (x2 x3 : Vec Ideal S2048x50 .f32)
    (x4 : Vec Ideal S64x32 .f32) (x5 : Vec Ideal S64 .f32) (x6 : Vec Ideal S4x100x64 .f32) (x7 : Vec Ideal S4x100 .f32) (x8 : Vec Ideal S4x32x100 .f32) (x9 : Vec Ideal S4x32 .f32) (x10 : Vec Ideal S200x192 .f32) (x11 : Vec Ideal S200x50 .f32) (x12 : Vec Ideal S200 .f32) (x13 : Vec Ideal S200 .f32) (x14 : Vec Ideal S100x50 .f32) (x15 : Vec Ideal S100 .f32) (x16 : Vec Ideal S100x100 .f32) (x17 : Vec Ideal S100 .f32) (x18 : Vec Ideal S64x100 .f32) (x19 : Vec Ideal S64 .f32) (x20 : Vec Ideal S16x64 .f32) (x21 : Vec Ideal S16 .f32) (x22 : Vec Ideal S16x64 .f32) (x23 : Vec Ideal S16 .f32) (x24 : Vec Ideal S1x16 .f32) (x25 : Vec Ideal S1x16 .f32)
    (h4 : x4 = w.Win) (h5 : x5 = w.bin) (h6 : x6 = w.W1) (h7 : x7 = w.b1) (h8 : x8 = w.W2) (h9 : x9 = w.b2) (h10 : x10 = w.Wih) (h11 : x11 = w.Whh) (h12 : x12 = w.bih) (h13 : x13 = w.bhh) (h14 : x14 = w.Wu1) (h15 : x15 = w.bu1) (h16 : x16 = w.Wu2) (h17 : x17 = w.bu2) (h18 : x18 = w.Wu3) (h19 : x19 = w.bu3) (h20 : x20 = w.Wmu) (h21 : x21 = w.bmu) (h22 : x22 = w.Wvar) (h23 : x23 = w.bvar) (h24 : x24 = w.maxlv) (h25 : x25 = w.minlv)
    (r : Fin 2048) (j : Fin 324) :
    out0_26 (F := Ideal) x0 x1 x2 x3 x4 x5 x6 x7 x8 x9 x10 x11 x12 x13 x14 x15 x16 x17 x18 x19 x20 x21 x22 x23 x24 x25 (ix2 r j)
      = Gnn.out w (fun k => x0 (ix2 r k)) (fun p k => x1 (ix3 p r k)) (fun k => x2 (ix2 r k)) (fun k => x3 (ix2 r k)) j := by
  subst h4 h5 h6 h7 h8 h9 h10 h11 h12 h13 h14 h15 h16 h17 h18 h19 h20 h21 h22 h23 h24 h25
  exact block_apply w x0 x1 x2 x3 r j

/-- The row function depends on its four row inputs entry by entry. -/
theorem out_congr (w : Gnn.Weights) {o o' : Fin 32 → EReal} {mi mi' : Fin 4 → Fin 32 → EReal} {h h' c c' : Fin 50 → EReal}
    (ho : ∀ k, o k = o' k) (hmi : ∀ p k, mi p k = mi' p k) (hh : ∀ k, h k = h' k) (hc : ∀ k, c k = c' k) (j : Fin 324) :
    Gnn.out w o mi h c j = Gnn.out w o' mi' h' c' j := by
  rw [funext ho, funext fun p => funext (hmi p), funext hh, funext hc]

/-- The part of the result's staging buffer written back, read at an entry. -/
theorem cut26_apply (t : Fin cfg0.N) (X : Vec Ideal S2048x324 .f32) (y : ((cfg0.win 26).xblock (grid0.coords t)).Idx)
    (r : Fin 2048) (j : Fin 324) (hr : r.val = (y 0).val) (hj : j.val = (y 1).val) :
    (cfg0.win 26).cut (grid0.coords t) X y = X (ix2 r j) :=
  congrArg X (funext fun a => Fin.ext (match a with | ⟨0, _⟩ => hr.symm | ⟨1, _⟩ => hj.symm))

/-- What point t writes back is block t of G. -/
theorem flushed_eq (c : Dev nD) (t : Fin cfg0.N) :
    (dats m 0 c).flushed 26 t = ((cfg0.win 26).blk t).view.read (Elt Ideal) (G m c) := by
  rw [Value.flushed26]
  funext y
  have ht : t.val < 128 := Nat.lt_of_lt_of_eq t.isLt N_0
  have hy0 : (y 0).val < 2048 := (y 0).isLt
  have hy1 : (y 1).val < 324 := (y 1).isLt
  obtain ⟨-, -, -, -, e0, e1⟩ := idx_rows t
  have hi : 2048 * t.val + (y 0).val < 262144 := by omega
  have he : ((cfg0.win 26).blk t).view.emb y = ix2 (⟨2048 * t.val + (y 0).val, hi⟩ : Fin 262144) (⟨(y 1).val, hy1⟩ : Fin 324) :=
    funext fun a => Fin.ext (match a with
      | ⟨0, _⟩ => by show win0_26.index t 0 * 2048 + 1 * (y 0).val = 2048 * t.val + (y 0).val; rw [e0]; omega
      | ⟨1, _⟩ => by show win0_26.index t 1 * 324 + 1 * (y 1).val = (y 1).val; rw [e1]; omega)
  refine (cut26_apply t _ y ⟨(y 0).val, hy0⟩ ⟨(y 1).val, hy1⟩ rfl rfl).trans ?_
  refine (block_apply_of (wts m c) _ _ _ _ _ _ _ _ _ _ _ _ _ _ _ _ _ _ _ _ _ _ _ _ _ _
    (iblk4_eq m c t) (iblk5_eq m c t) (iblk6_eq m c t) (iblk7_eq m c t) (iblk8_eq m c t) (iblk9_eq m c t) (iblk10_eq m c t) (iblk11_eq m c t) (iblk12_eq m c t) (iblk13_eq m c t) (iblk14_eq m c t) (iblk15_eq m c t) (iblk16_eq m c t) (iblk17_eq m c t) (iblk18_eq m c t) (iblk19_eq m c t) (iblk20_eq m c t) (iblk21_eq m c t) (iblk22_eq m c t) (iblk23_eq m c t) (iblk24_eq m c t) (iblk25_eq m c t) _ _).trans ?_
  show _ = G m c (((cfg0.win 26).blk t).view.emb y)
  rw [he]
  exact out_congr (wts m c) (fun k => iblk0_apply m c t _ k _ rfl) (fun p k => iblk1_apply m c t p _ k _ rfl)
    (fun k => iblk2_apply m c t _ k _ rfl) (fun k => iblk3_apply m c t _ k _ rfl) _

/-- The blocks cover the result array, so it ends holding G. -/
theorem final (c : Dev nD) : (dats m 0 c).arrAt 26 cfg0.N = G m c :=
  (dats m 0 c).arrAt_eq_of_cover 26 (G m c) (fun t _ => flushed_eq m c t) fun i => by
    have hi0 : (i 0).val < 262144 := (i 0).isLt
    have hi1 : (i 1).val < 324 := (i 1).isLt
    have hN : cfg0.N = 128 := N_0
    have htl : (i 0).val / 2048 < cfg0.N := by rw [hN]; omega
    obtain ⟨-, -, -, -, e0, e1⟩ := idx_rows ⟨(i 0).val / 2048, htl⟩
    refine ⟨⟨(i 0).val / 2048, htl⟩, flush0_26 _, ?_⟩
    show i ∈ ((View.whole main_v0).slice (win0_26.rect ⟨(i 0).val / 2048, htl⟩)).set
    rw [View.set_slice_whole, Rect.mem_set_unit]
    intro a
    match a with
    | ⟨0, _⟩ =>
      show win0_26.index ⟨(i 0).val / 2048, htl⟩ 0 * 2048 ≤ (i 0).val ∧ (i 0).val < win0_26.index ⟨(i 0).val / 2048, htl⟩ 0 * 2048 + 2048
      rw [e0]; show (i 0).val / 2048 * 2048 ≤ (i 0).val ∧ (i 0).val < (i 0).val / 2048 * 2048 + 2048; omega
    | ⟨1, _⟩ =>
      show win0_26.index ⟨(i 0).val / 2048, htl⟩ 1 * 324 ≤ (i 1).val ∧ (i 1).val < win0_26.index ⟨(i 0).val / 2048, htl⟩ 1 * 324 + 324
      rw [e1]; omega

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final m c), (h c).2⟩) (Cert.KernelIdeal.Value.run_blocks m ρ)

end Cert.KernelIdeal.Whole

end
-- ==== Proof.RefA.lean ====
/-
  The reference's stages, read at one batch row: the input layer x, the four outgoing-message networks, the incoming
  messages laid side by side, the 192-wide row (x | messages) and the LSTM gates.  Entry (b, j) of each stage is the
  specification's row function at row b of the batched inputs: a host dot_general is the sum over its contracted axis,
  a transpose or reshape re-reads an index, a broadcast bias reads its own entry.
-/
import proofs.«136165_j65618510348951_1_alg».proof.Proof.Gen.ReferenceIdeal.Read
import proofs.«136165_j65618510348951_1_alg».proof.Proof.Spec
import proofs.«136165_j65618510348951_1_alg».proof.Proof.LibConcatCols

noncomputable section

namespace Cert.ReferenceIdeal.Layers

open Idealize.ShloMosaic Idealize.ShloMosaic.ValueIdx Cert.ReferenceIdeal Cert.ReferenceIdeal.Read Cert

variable (w : Gnn.Weights) (b : Fin 262144)
  (X0 : FVec Ideal S262144x32 .f32) (X1 : FVec Ideal S4x262144x32 .f32) (X2 X3 : FVec Ideal S262144x50 .f32)

/-- Row b of the four batched inputs. -/
abbrev rowO : Fin 32 → EReal := fun k => X0 (ix2 b k)
abbrev rowM : Fin 4 → Fin 32 → EReal := fun p k => X1 (ix3 p b k)
abbrev rowH : Fin 50 → EReal := fun k => X2 (ix2 b k)
abbrev rowC : Fin 50 → EReal := fun k => X3 (ix2 b k)

/-- The input layer: the product with the transposed weight reads W_in at (s, k); the bias is broadcast along the rows. -/
theorem x_apply (s : Fin 64) :
    val_main_v5 (F := Ideal) X0 w.Win w.bin (ix2 b s) = Gnn.x w (rowO b X0) s := by
  unfold Gnn.x Gnn.dense
  rw [val_main_v5_apply, val_main_v4_apply, val_main_v1_apply, val_main_v3_apply, val_main_v2_apply,
    val_main_call0_v0_apply, val_main_call0_cst_apply]
  have e3 : idx_main_v2 (idx_main_v3 (ix2 b s)) = ix1 s :=
    funext fun a => Fin.ext (by match a with | ⟨0, _⟩ => rfl)
  have es : ∀ k : Fin 32, (X0 (lidx_main_v1 (ix2 b s) k) : EReal)
        * (val_main_v0 (F := Ideal) w.Win (ridx_main_v1 (ix2 b s) k) : EReal)
      = rowO b X0 k * w.Win (ix2 s k) := by
    intro k
    have e1 : lidx_main_v1 (ix2 b s) k = ix2 b k :=
      funext fun a => Fin.ext (by match a with | ⟨0, _⟩ => rfl | ⟨1, _⟩ => rfl)
    have e2 : idx_main_v0 (ridx_main_v1 (ix2 b s) k) = ix2 s k :=
      funext fun a => Fin.ext (by match a with | ⟨0, _⟩ => rfl | ⟨1, _⟩ => rfl)
    rw [val_main_v0_apply, e1, e2]
  rw [e3, Finset.sum_congr rfl fun k _ => es k]
  rfl

/-- The first message layer: the weight is the left factor of the product, the specification's right one. -/
theorem h1_apply (p : Fin 4) (k : Fin 100) :
    val_main_v11 (F := Ideal) X0 w.Win w.bin w.W1 w.b1 (ix3 p b k) = Gnn.h1 w (rowO b X0) p k := by
  unfold Gnn.h1
  rw [val_main_v11_apply, val_main_v10_apply, val_main_v7_apply, val_main_v6_apply, val_main_v9_apply, val_main_v8_apply,
    val_main_call1_v0_apply, val_main_call1_cst_apply]
  have e3 : idx_main_v8 (idx_main_v9 (ix3 p b k)) = ix2 p k :=
    funext fun a => Fin.ext (by match a with | ⟨0, _⟩ => rfl | ⟨1, _⟩ => rfl)
  have es : ∀ s : Fin 64, (w.W1 (lidx_main_v6 (idx_main_v7 (ix3 p b k)) s) : EReal)
        * (val_main_v5 (F := Ideal) X0 w.Win w.bin (ridx_main_v6 (idx_main_v7 (ix3 p b k)) s) : EReal)
      = Gnn.x w (rowO b X0) s * w.W1 (ix3 p k s) := by
    intro s
    have e1 : lidx_main_v6 (idx_main_v7 (ix3 p b k)) s = ix3 p k s :=
      funext fun a => Fin.ext (by match a with | ⟨0, _⟩ => rfl | ⟨1, _⟩ => rfl | ⟨2, _⟩ => rfl)
    have e2 : ridx_main_v6 (idx_main_v7 (ix3 p b k)) s = ix2 b s :=
      funext fun a => Fin.ext (by match a with | ⟨0, _⟩ => rfl | ⟨1, _⟩ => rfl)
    rw [e1, e2, x_apply, mul_comm]
  rw [e3, Finset.sum_congr rfl fun s _ => es s]
  rfl

/-- The second message layer, port by port. -/
theorem op_apply (p : Fin 4) (m : Fin 32) :
    val_main_v15 (F := Ideal) X0 w.Win w.bin w.W1 w.b1 w.W2 w.b2 (ix3 p b m) = Gnn.op w (rowO b X0) p m := by
  unfold Gnn.op
  rw [val_main_v15_apply, val_main_v12_apply, val_main_v14_apply, val_main_v13_apply]
  have e3 : idx_main_v13 (idx_main_v14 (ix3 p b m)) = ix2 p m :=
    funext fun a => Fin.ext (by match a with | ⟨0, _⟩ => rfl | ⟨1, _⟩ => rfl)
  have es : ∀ k : Fin 100, (val_main_v11 (F := Ideal) X0 w.Win w.bin w.W1 w.b1 (lidx_main_v12 (ix3 p b m) k) : EReal)
        * (w.W2 (ridx_main_v12 (ix3 p b m) k) : EReal)
      = Gnn.h1 w (rowO b X0) p k * w.W2 (ix3 p m k) := by
    intro k
    have e1 : lidx_main_v12 (ix3 p b m) k = ix3 p b k :=
      funext fun a => Fin.ext (by match a with | ⟨0, _⟩ => rfl | ⟨1, _⟩ => rfl | ⟨2, _⟩ => rfl)
    have e2 : ridx_main_v12 (ix3 p b m) k = ix3 p m k :=
      funext fun a => Fin.ext (by match a with | ⟨0, _⟩ => rfl | ⟨1, _⟩ => rfl | ⟨2, _⟩ => rfl)
    rw [e1, e2, h1_apply]
  rw [e3, Finset.sum_congr rfl fun k _ => es k]
  rfl

/-- The outgoing messages side by side: column q of row b is entry q % 32 of port q / 32. -/
theorem msgs_apply (q : Fin 128) :
    val_main_v97 (F := Ideal) X0 w.Win w.bin w.W1 w.b1 w.W2 w.b2 (ix2 b q)
      = Gnn.op w (rowO b X0) ⟨q.val / 32, by have := q.isLt; omega⟩ ⟨q.val % 32, Nat.mod_lt _ (by decide)⟩ := by
  rw [val_main_v97_apply, val_main_v96_apply]
  have e : idx_main_v96 (idx_main_v97 (ix2 b q))
      = ix3 (⟨q.val / 32, by have := q.isLt; omega⟩ : Fin 4) b (⟨q.val % 32, Nat.mod_lt _ (by decide)⟩ : Fin 32) :=
    funext fun a => Fin.ext (by
      have hq := q.isLt
      match a with
      | ⟨0, _⟩ => show (b.val * 128 + q.val) / 32 % 4 = q.val / 32; omega
      | ⟨1, _⟩ => show (b.val * 128 + q.val) / 128 = b.val; omega
      | ⟨2, _⟩ => show (b.val * 128 + q.val) % 32 = q.val % 32; omega)
  rw [e, op_apply]

/-- The incoming messages side by side, the same re-layout. -/
theorem agg_apply (q : Fin 128) :
    val_main_v17 (F := Ideal) X1 (ix2 b q) = X1 (ix3 (⟨q.val / 32, by have := q.isLt; omega⟩ : Fin 4) b (⟨q.val % 32, Nat.mod_lt _ (by decide)⟩ : Fin 32)) := by
  rw [val_main_v17_apply, val_main_v16_apply]
  have e : idx_main_v16 (idx_main_v17 (ix2 b q))
      = ix3 (⟨q.val / 32, by have := q.isLt; omega⟩ : Fin 4) b (⟨q.val % 32, Nat.mod_lt _ (by decide)⟩ : Fin 32) :=
    funext fun a => Fin.ext (by
      have hq := q.isLt
      match a with
      | ⟨0, _⟩ => show (b.val * 128 + q.val) / 32 % 4 = q.val / 32; omega
      | ⟨1, _⟩ => show (b.val * 128 + q.val) / 128 = b.val; omega
      | ⟨2, _⟩ => show (b.val * 128 + q.val) % 32 = q.val % 32; omega)
  rw [e]

/-- The LSTM's input: columns below 64 are x, the others the incoming messages 64 columns to the left. -/
theorem hm_apply (k : Fin 192) :
    val_main_v18 (F := Ideal) X0 X1 w.Win w.bin (ix2 b k) = Gnn.hm w (rowO b X0) (rowM b X1) k := by
  unfold Gnn.hm val_main_v18
  by_cases hk : k.val < 64
  · rw [dif_pos hk]
    refine Eq.trans (LibConcatCols.cols_piece _ _ b k 0 ?_ 64 (val_main_v5 (F := Ideal) X0 w.Win w.bin) ?_ 0 ?_
      (Nat.zero_le _) hk) ?_
    · show (0 : Nat) < 2; omega
    · rfl
    · rfl
    · exact x_apply w b X0 ⟨k.val, hk⟩
  · rw [dif_neg hk]
    have hk2 := k.isLt
    refine Eq.trans (LibConcatCols.cols_piece _ _ b k 1 ?_ 128 (val_main_v17 (F := Ideal) X1) ?_ 64 ?_
      (by omega) (by omega)) ?_
    · show (1 : Nat) < 2; omega
    · rfl
    · rfl
    · exact agg_apply b X1 ⟨k.val - 64, _⟩

/-- The gates: the reference adds the two biases one after the other, the specification layer by layer. -/
theorem gates_apply (g : Fin 200) :
    val_main_v29 (F := Ideal) X0 X1 X2 w.Win w.bin w.Wih w.Whh w.bih w.bhh (ix2 b g)
      = Gnn.gates w (rowO b X0) (rowM b X1) (rowH b X2) g := by
  unfold Gnn.gates Gnn.dense
  rw [val_main_v29_apply, val_main_v26_apply, val_main_v23_apply, val_main_v20_apply, val_main_v22_apply,
    val_main_v21_apply, val_main_v25_apply, val_main_v28_apply, val_main_v27_apply]
  have eb1 : idx_main_v21 (idx_main_v22 (ix2 b g)) = ix1 g :=
    funext fun a => Fin.ext (by match a with | ⟨0, _⟩ => rfl)
  have eb2 : idx_main_v27 (idx_main_v28 (ix2 b g)) = ix1 g :=
    funext fun a => Fin.ext (by match a with | ⟨0, _⟩ => rfl)
  have es1 : ∀ k : Fin 192, (val_main_v18 (F := Ideal) X0 X1 w.Win w.bin (lidx_main_v20 (ix2 b g) k) : EReal)
        * (val_main_v19 (F := Ideal) w.Wih (ridx_main_v20 (ix2 b g) k) : EReal)
      = Gnn.hm w (rowO b X0) (rowM b X1) k * w.Wih (ix2 g k) := by
    intro k
    have e1 : lidx_main_v20 (ix2 b g) k = ix2 b k :=
      funext fun a => Fin.ext (by match a with | ⟨0, _⟩ => rfl | ⟨1, _⟩ => rfl)
    have e2 : idx_main_v19 (ridx_main_v20 (ix2 b g) k) = ix2 g k :=
      funext fun a => Fin.ext (by match a with | ⟨0, _⟩ => rfl | ⟨1, _⟩ => rfl)
    rw [val_main_v19_apply, e1, e2, hm_apply]
  have es2 : ∀ k : Fin 50, (X2 (lidx_main_v25 (ix2 b g) k) : EReal)
        * (val_main_v24 (F := Ideal) w.Whh (ridx_main_v25 (ix2 b g) k) : EReal)
      = rowH b X2 k * w.Whh (ix2 g k) := by
    intro k
    have e1 : lidx_main_v25 (ix2 b g) k = ix2 b k :=
      funext fun a => Fin.ext (by match a with | ⟨0, _⟩ => rfl | ⟨1, _⟩ => rfl)
    have e2 : idx_main_v24 (ridx_main_v25 (ix2 b g) k) = ix2 g k :=
      funext fun a => Fin.ext (by match a with | ⟨0, _⟩ => rfl | ⟨1, _⟩ => rfl)
    rw [val_main_v24_apply, e1, e2]
  rw [eb1, eb2, Finset.sum_congr rfl fun k _ => es1 k, Finset.sum_congr rfl fun k _ => es2 k]
  exact add_assoc _ _ _

end Cert.ReferenceIdeal.Layers

end
-- ==== Proof.RefB.lean ====
/-
  The reference's later stages at one batch row: the LSTM cell (cnew, hnew) from the four slices of the gates, the
  three-layer update network h2, the two heads mu and lv, the soft clamp of the log-variance and its exponential, and the
  concatenation of the six output pieces.  Entry (b, j) of the result is the specification's output row at row b.
-/
import proofs.«136165_j65618510348951_1_alg».proof.Proof.RefA
import proofs.«136165_j65618510348951_1_alg».proof.Proof.Spec
import proofs.«136165_j65618510348951_1_alg».proof.Proof.LibConcatCols

noncomputable section

namespace Cert.ReferenceIdeal.Layers

open Idealize.ShloMosaic Idealize.ShloMosaic.ValueIdx Cert.ReferenceIdeal Cert.ReferenceIdeal.Read Cert

variable (w : Gnn.Weights) (b : Fin 262144)
  (X0 : FVec Ideal S262144x32 .f32) (X1 : FVec Ideal S4x262144x32 .f32) (X2 X3 : FVec Ideal S262144x50 .f32)

theorem cnew_apply (j : Fin 50) :
    val_main_v49 (F := Ideal) X0 X1 X2 X3 w.Win w.bin w.Wih w.Whh w.bih w.bhh (ix2 b j)
      = Gnn.cnew w (rowO b X0) (rowM b X1) (rowH b X2) (rowC b X3) j := by
  have e30 : idx_main_v30 (ix2 b j) = ix2 b (⟨j.val, by have := j.isLt; omega⟩ : Fin 200) := funext fun a => Fin.ext (by match a with | ⟨0, _⟩ => rfl | ⟨1, _⟩ => rfl)
  have e31 : idx_main_v31 (ix2 b j) = ix2 b (⟨50 + j.val, by have := j.isLt; omega⟩ : Fin 200) := funext fun a => Fin.ext (by match a with | ⟨0, _⟩ => rfl | ⟨1, _⟩ => rfl)
  have e32 : idx_main_v32 (ix2 b j) = ix2 b (⟨100 + j.val, by have := j.isLt; omega⟩ : Fin 200) := funext fun a => Fin.ext (by match a with | ⟨0, _⟩ => rfl | ⟨1, _⟩ => rfl)
  unfold Gnn.cnew
  rw [val_main_v49_apply, val_main_v40_apply, val_main_v39_apply, val_main_v38_apply, val_main_v37_apply, val_main_v36_apply,
    val_main_v35_apply, val_main_v34_apply, val_main_v31_apply, e31, gates_apply w b X0 X1 X2,
    val_main_v48_apply, val_main_v46_apply, val_main_v45_apply, val_main_v44_apply, val_main_v43_apply,
    val_main_v42_apply, val_main_v41_apply, val_main_v30_apply, e30, gates_apply w b X0 X1 X2,
    val_main_v47_apply, val_main_v32_apply, e32, gates_apply w b X0 X1 X2,
    ← Gnn.sig_spelt, ← Gnn.sig_spelt]
  rfl

theorem hnew_apply (j : Fin 50) :
    val_main_v57 (F := Ideal) X0 X1 X2 X3 w.Win w.bin w.Wih w.Whh w.bih w.bhh (ix2 b j)
      = Gnn.hnew w (rowO b X0) (rowM b X1) (rowH b X2) (rowC b X3) j := by
  have e33 : idx_main_v33 (ix2 b j) = ix2 b (⟨150 + j.val, by have := j.isLt; omega⟩ : Fin 200) := funext fun a => Fin.ext (by match a with | ⟨0, _⟩ => rfl | ⟨1, _⟩ => rfl)
  unfold Gnn.hnew
  rw [val_main_v57_apply, val_main_v55_apply, val_main_v54_apply, val_main_v53_apply, val_main_v52_apply,
    val_main_v51_apply, val_main_v50_apply, val_main_v33_apply, e33, gates_apply w b X0 X1 X2,
    val_main_v56_apply, cnew_apply w b X0 X1 X2 X3, ← Gnn.sig_spelt]
  rfl

theorem u1_apply (j : Fin 100) :
    val_main_v63 (F := Ideal) X0 X1 X2 X3 w.Win w.bin w.Wih w.Whh w.bih w.bhh w.Wu1 w.bu1 (ix2 b j)
      = Gnn.u1 w (rowO b X0) (rowM b X1) (rowH b X2) (rowC b X3) j := by
  have hk : ∀ k : Fin 50, val_main_v57 (F := Ideal) X0 X1 X2 X3 w.Win w.bin w.Wih w.Whh w.bih w.bhh (lidx_main_v59 (ix2 b j) k)
        * val_main_v58 (F := Ideal) w.Wu1 (ridx_main_v59 (ix2 b j) k)
      = Gnn.hnew w (rowO b X0) (rowM b X1) (rowH b X2) (rowC b X3) k * w.Wu1 (ix2 j k) := fun k => by
    have el : lidx_main_v59 (ix2 b j) k = ix2 b k := funext fun a => Fin.ext (by match a with | ⟨0, _⟩ => rfl | ⟨1, _⟩ => rfl)
    have er : idx_main_v58 (ridx_main_v59 (ix2 b j) k) = ix2 j k := funext fun a => Fin.ext (by match a with | ⟨0, _⟩ => rfl | ⟨1, _⟩ => rfl)
    rw [val_main_v58_apply, el, er, hnew_apply w b X0 X1 X2 X3]
  have eb : idx_main_v60 (idx_main_v61 (ix2 b j)) = ix1 j := funext fun a => Fin.ext (by match a with | ⟨0, _⟩ => rfl)
  unfold Gnn.u1 Gnn.dense
  rw [val_main_v63_apply, val_main_v62_apply, val_main_v59_apply, val_main_v61_apply, val_main_v60_apply, eb, val_main_call2_v0_apply]
  exact congrArg (fun s => max (s + w.bu1 (ix1 j)) Gnn.Z) (Finset.sum_congr (s₁ := Finset.univ) rfl fun k _ => hk k)

theorem u2_apply (j : Fin 100) :
    val_main_v69 (F := Ideal) X0 X1 X2 X3 w.Win w.bin w.Wih w.Whh w.bih w.bhh w.Wu1 w.bu1 w.Wu2 w.bu2 (ix2 b j)
      = Gnn.u2 w (rowO b X0) (rowM b X1) (rowH b X2) (rowC b X3) j := by
  have hk : ∀ k : Fin 100, val_main_v63 (F := Ideal) X0 X1 X2 X3 w.Win w.bin w.Wih w.Whh w.bih w.bhh w.Wu1 w.bu1 (lidx_main_v65 (ix2 b j) k)
        * val_main_v64 (F := Ideal) w.Wu2 (ridx_main_v65 (ix2 b j) k)
      = Gnn.u1 w (rowO b X0) (rowM b X1) (rowH b X2) (rowC b X3) k * w.Wu2 (ix2 j k) := fun k => by
    have el : lidx_main_v65 (ix2 b j) k = ix2 b k := funext fun a => Fin.ext (by match a with | ⟨0, _⟩ => rfl | ⟨1, _⟩ => rfl)
    have er : idx_main_v64 (ridx_main_v65 (ix2 b j) k) = ix2 j k := funext fun a => Fin.ext (by match a with | ⟨0, _⟩ => rfl | ⟨1, _⟩ => rfl)
    rw [val_main_v64_apply, el, er, u1_apply w b X0 X1 X2 X3]
  have eb : idx_main_v66 (idx_main_v67 (ix2 b j)) = ix1 j := funext fun a => Fin.ext (by match a with | ⟨0, _⟩ => rfl)
  unfold Gnn.u2 Gnn.dense
  rw [val_main_v69_apply, val_main_v68_apply, val_main_v65_apply, val_main_v67_apply, val_main_v66_apply, eb, val_main_call3_v0_apply]
  exact congrArg (fun s => max (s + w.bu2 (ix1 j)) Gnn.Z) (Finset.sum_congr (s₁ := Finset.univ) rfl fun k _ => hk k)

theorem h2_apply (j : Fin 64) :
    val_main_v74 (F := Ideal) X0 X1 X2 X3 w.Win w.bin w.Wih w.Whh w.bih w.bhh w.Wu1 w.bu1 w.Wu2 w.bu2 w.Wu3 w.bu3 (ix2 b j)
      = Gnn.h2 w (rowO b X0) (rowM b X1) (rowH b X2) (rowC b X3) j := by
  have hk : ∀ k : Fin 100, val_main_v69 (F := Ideal) X0 X1 X2 X3 w.Win w.bin w.Wih w.Whh w.bih w.bhh w.Wu1 w.bu1 w.Wu2 w.bu2 (lidx_main_v71 (ix2 b j) k)
        * val_main_v70 (F := Ideal) w.Wu3 (ridx_main_v71 (ix2 b j) k)
      = Gnn.u2 w (rowO b X0) (rowM b X1) (rowH b X2) (rowC b X3) k * w.Wu3 (ix2 j k) := fun k => by
    have el : lidx_main_v71 (ix2 b j) k = ix2 b k := funext fun a => Fin.ext (by match a with | ⟨0, _⟩ => rfl | ⟨1, _⟩ => rfl)
    have er : idx_main_v70 (ridx_main_v71 (ix2 b j) k) = ix2 j k := funext fun a => Fin.ext (by match a with | ⟨0, _⟩ => rfl | ⟨1, _⟩ => rfl)
    rw [val_main_v70_apply, el, er, u2_apply w b X0 X1 X2 X3]
  have eb : idx_main_v72 (idx_main_v73 (ix2 b j)) = ix1 j := funext fun a => Fin.ext (by match a with | ⟨0, _⟩ => rfl)
  unfold Gnn.h2 Gnn.dense
  rw [val_main_v74_apply, val_main_v71_apply, val_main_v73_apply, val_main_v72_apply, eb]
  exact congrArg (fun s => s + w.bu3 (ix1 j)) (Finset.sum_congr (s₁ := Finset.univ) rfl fun k _ => hk k)

theorem mu_apply (j : Fin 16) :
    val_main_v79 (F := Ideal) X0 X1 X2 X3 w.Win w.bin w.Wih w.Whh w.bih w.bhh w.Wu1 w.bu1 w.Wu2 w.bu2 w.Wu3 w.bu3 w.Wmu w.bmu (ix2 b j)
      = Gnn.mu w (rowO b X0) (rowM b X1) (rowH b X2) (rowC b X3) j := by
  have hk : ∀ k : Fin 64, val_main_v74 (F := Ideal) X0 X1 X2 X3 w.Win w.bin w.Wih w.Whh w.bih w.bhh w.Wu1 w.bu1 w.Wu2 w.bu2 w.Wu3 w.bu3 (lidx_main_v76 (ix2 b j) k)
        * val_main_v75 (F := Ideal) w.Wmu (ridx_main_v76 (ix2 b j) k)
      = Gnn.h2 w (rowO b X0) (rowM b X1) (rowH b X2) (rowC b X3) k * w.Wmu (ix2 j k) := fun k => by
    have el : lidx_main_v76 (ix2 b j) k = ix2 b k := funext fun a => Fin.ext (by match a with | ⟨0, _⟩ => rfl | ⟨1, _⟩ => rfl)
    have er : idx_main_v75 (ridx_main_v76 (ix2 b j) k) = ix2 j k := funext fun a => Fin.ext (by match a with | ⟨0, _⟩ => rfl | ⟨1, _⟩ => rfl)
    rw [val_main_v75_apply, el, er, h2_apply w b X0 X1 X2 X3]
  have eb : idx_main_v77 (idx_main_v78 (ix2 b j)) = ix1 j := funext fun a => Fin.ext (by match a with | ⟨0, _⟩ => rfl)
  unfold Gnn.mu Gnn.dense
  rw [val_main_v79_apply, val_main_v76_apply, val_main_v78_apply, val_main_v77_apply, eb]
  exact congrArg (fun s => s + w.bmu (ix1 j)) (Finset.sum_congr (s₁ := Finset.univ) rfl fun k _ => hk k)

theorem lv_apply (j : Fin 16) :
    val_main_v84 (F := Ideal) X0 X1 X2 X3 w.Win w.bin w.Wih w.Whh w.bih w.bhh w.Wu1 w.bu1 w.Wu2 w.bu2 w.Wu3 w.bu3 w.Wvar w.bvar (ix2 b j)
      = Gnn.lv w (rowO b X0) (rowM b X1) (rowH b X2) (rowC b X3) j := by
  have hk : ∀ k : Fin 64, val_main_v74 (F := Ideal) X0 X1 X2 X3 w.Win w.bin w.Wih w.Whh w.bih w.bhh w.Wu1 w.bu1 w.Wu2 w.bu2 w.Wu3 w.bu3 (lidx_main_v81 (ix2 b j) k)
        * val_main_v80 (F := Ideal) w.Wvar (ridx_main_v81 (ix2 b j) k)
      = Gnn.h2 w (rowO b X0) (rowM b X1) (rowH b X2) (rowC b X3) k * w.Wvar (ix2 j k) := fun k => by
    have el : lidx_main_v81 (ix2 b j) k = ix2 b k := funext fun a => Fin.ext (by match a with | ⟨0, _⟩ => rfl | ⟨1, _⟩ => rfl)
    have er : idx_main_v80 (ridx_main_v81 (ix2 b j) k) = ix2 j k := funext fun a => Fin.ext (by match a with | ⟨0, _⟩ => rfl | ⟨1, _⟩ => rfl)
    rw [val_main_v80_apply, el, er, h2_apply w b X0 X1 X2 X3]
  have eb : idx_main_v82 (idx_main_v83 (ix2 b j)) = ix1 j := funext fun a => Fin.ext (by match a with | ⟨0, _⟩ => rfl)
  unfold Gnn.lv Gnn.dense
  rw [val_main_v84_apply, val_main_v81_apply, val_main_v83_apply, val_main_v82_apply, eb]
  exact congrArg (fun s => s + w.bvar (ix1 j)) (Finset.sum_congr (s₁ := Finset.univ) rfl fun k _ => hk k)

/-- maxlv − lv, the argument of the first softplus. -/
theorem refB_a1 (j : Fin 16) :
    val_main_v86 (F := Ideal) X0 X1 X2 X3 w.Win w.bin w.Wih w.Whh w.bih w.bhh w.Wu1 w.bu1 w.Wu2 w.bu2 w.Wu3 w.bu3 w.Wvar w.bvar w.maxlv (ix2 b j) = Gnn.a1 w (rowO b X0) (rowM b X1) (rowH b X2) (rowC b X3) j := by
  have e : idx_main_v85 (ix2 b j) = ix2 (0 : Fin 1) j := funext fun a => Fin.ext (by match a with | ⟨0, _⟩ => rfl | ⟨1, _⟩ => rfl)
  unfold Gnn.a1
  rw [val_main_v86_apply, val_main_v85_apply, e, lv_apply w b X0 X1 X2 X3]
  rfl

/-- The first softplus. -/
theorem refB_sp1 (j : Fin 16) :
    val_main_v87 (F := Ideal) X0 X1 X2 X3 w.Win w.bin w.Wih w.Whh w.bih w.bhh w.Wu1 w.bu1 w.Wu2 w.bu2 w.Wu3 w.bu3 w.Wvar w.bvar w.maxlv (ix2 b j) = Gnn.softplus (Gnn.a1 w (rowO b X0) (rowM b X1) (rowH b X2) (rowC b X3) j) := by
  rw [val_main_v87_apply, val_main_call4_v4_apply, val_main_call4_v6_apply, val_main_call4_v11_apply, val_main_call4_v1_apply,
    val_main_call4_v10_apply, val_main_call4_v9_apply, val_main_call4_v8_apply, val_main_call4_v7_apply, val_main_call4_v3_apply,
    val_main_call4_v2_apply, val_main_call4_v5_apply, val_main_call4_v0_apply, refB_a1 w b X0 X1 X2 X3, ← Gnn.softplus_spelt]
  rfl

/-- (maxlv − softplus a1) − minlv, the argument of the second softplus. -/
theorem refB_a2 (j : Fin 16) :
    val_main_v91 (F := Ideal) X0 X1 X2 X3 w.Win w.bin w.Wih w.Whh w.bih w.bhh w.Wu1 w.bu1 w.Wu2 w.bu2 w.Wu3 w.bu3 w.Wvar w.bvar w.maxlv w.minlv (ix2 b j) = Gnn.a2 w (rowO b X0) (rowM b X1) (rowH b X2) (rowC b X3) j := by
  have e88 : idx_main_v88 (ix2 b j) = ix2 (0 : Fin 1) j := funext fun a => Fin.ext (by match a with | ⟨0, _⟩ => rfl | ⟨1, _⟩ => rfl)
  have e90 : idx_main_v90 (ix2 b j) = ix2 (0 : Fin 1) j := funext fun a => Fin.ext (by match a with | ⟨0, _⟩ => rfl | ⟨1, _⟩ => rfl)
  unfold Gnn.a2
  rw [val_main_v91_apply, val_main_v89_apply, val_main_v88_apply, e88, refB_sp1 w b X0 X1 X2 X3, val_main_v90_apply, e90]
  rfl

/-- The second softplus. -/
theorem refB_sp2 (j : Fin 16) :
    val_main_v92 (F := Ideal) X0 X1 X2 X3 w.Win w.bin w.Wih w.Whh w.bih w.bhh w.Wu1 w.bu1 w.Wu2 w.bu2 w.Wu3 w.bu3 w.Wvar w.bvar w.maxlv w.minlv (ix2 b j) = Gnn.softplus (Gnn.a2 w (rowO b X0) (rowM b X1) (rowH b X2) (rowC b X3) j) := by
  rw [val_main_v92_apply, val_main_call5_v4_apply, val_main_call5_v6_apply, val_main_call5_v11_apply, val_main_call5_v1_apply,
    val_main_call5_v10_apply, val_main_call5_v9_apply, val_main_call5_v8_apply, val_main_call5_v7_apply, val_main_call5_v3_apply,
    val_main_call5_v2_apply, val_main_call5_v5_apply, val_main_call5_v0_apply, refB_a2 w b X0 X1 X2 X3, ← Gnn.softplus_spelt]
  rfl

theorem var_apply (j : Fin 16) :
    val_main_v95 (F := Ideal) X0 X1 X2 X3 w.Win w.bin w.Wih w.Whh w.bih w.bhh w.Wu1 w.bu1 w.Wu2 w.bu2 w.Wu3 w.bu3 w.Wvar w.bvar
        w.maxlv w.minlv (ix2 b j)
      = Gnn.var w (rowO b X0) (rowM b X1) (rowH b X2) (rowC b X3) j := by
  have e93 : idx_main_v93 (ix2 b j) = ix2 (0 : Fin 1) j := funext fun a => Fin.ext (by match a with | ⟨0, _⟩ => rfl | ⟨1, _⟩ => rfl)
  unfold Gnn.var
  rw [val_main_v95_apply, val_main_v94_apply, val_main_v93_apply, e93, refB_sp2 w b X0 X1 X2 X3]
  rfl

/-- The reference's result at (b, j) is the row function at row b. -/
theorem out_apply (j : Fin 324) :
    val_main_v98 (F := Ideal) X0 X1 X2 X3 w.Win w.bin w.W1 w.b1 w.W2 w.b2 w.Wih w.Whh w.bih w.bhh w.Wu1 w.bu1 w.Wu2 w.bu2 w.Wu3 w.bu3
        w.Wmu w.bmu w.Wvar w.bvar w.maxlv w.minlv (ix2 b j)
      = Gnn.out w (rowO b X0) (rowM b X1) (rowH b X2) (rowC b X3) j := by
  have hj := j.isLt
  unfold Gnn.out val_main_v98
  by_cases q1 : j.val < 16
  · rw [dif_pos q1]
    refine (LibConcatCols.cols_piece _ _ b j 0 (by show (0 : Nat) < 6; omega) 16 _ rfl 0 rfl (by omega) (by omega)).trans ?_
    exact mu_apply w b X0 X1 X2 X3 ⟨j.val, q1⟩
  rw [dif_neg q1]
  by_cases q2 : j.val < 32
  · rw [dif_pos q2]
    refine (LibConcatCols.cols_piece _ _ b j 1 (by show (1 : Nat) < 6; omega) 16 _ rfl 16 rfl (by omega) (by omega)).trans ?_
    exact var_apply w b X0 X1 X2 X3 _
  rw [dif_neg q2]
  by_cases q3 : j.val < 160
  · rw [dif_pos q3]
    refine (LibConcatCols.cols_piece _ _ b j 2 (by show (2 : Nat) < 6; omega) 128 _ rfl 32 rfl (by omega) (by omega)).trans ?_
    exact msgs_apply w b X0 _
  rw [dif_neg q3]
  by_cases q4 : j.val < 224
  · rw [dif_pos q4]
    refine (LibConcatCols.cols_piece _ _ b j 3 (by show (3 : Nat) < 6; omega) 64 _ rfl 160 rfl (by omega) (by omega)).trans ?_
    exact h2_apply w b X0 X1 X2 X3 _
  rw [dif_neg q4]
  by_cases q5 : j.val < 274
  · rw [dif_pos q5]
    refine (LibConcatCols.cols_piece _ _ b j 4 (by show (4 : Nat) < 6; omega) 50 _ rfl 224 rfl (by omega) (by omega)).trans ?_
    exact hnew_apply w b X0 X1 X2 X3 _
  rw [dif_neg q5]
  refine (LibConcatCols.cols_piece _ _ b j 5 (by show (5 : Nat) < 6; omega) 50 _ rfl 274 rfl (by omega) (by omega)).trans ?_
  exact cnew_apply w b X0 X1 X2 X3 _

end Cert.ReferenceIdeal.Layers

end
-- ==== Proof.lean ====
/-
  The certificate: the kernel and the reference compute the same node update.

  Both programs compute, for every batch row, the row function of Proof/Spec.lean of that row of the four batched
  inputs and the weights.  The kernel does it block by block: 128 grid points, each staging 2048 rows and writing back
  the same 2048 rows of the result, so the blocks tile the result array (Proof/KWhole.lean, over the body's arithmetic
  read layer by layer in Proof/KMsg.lean, KLstm.lean, KHead.lean, KBlock.lean).  The reference does it with whole-array
  operations, read stage by stage (Proof/RefA.lean, RefB.lean, over the generated run and its stages).  On the extended reals the two agree entry by entry: a
  change of float format is the identity, the matrix unit's product into a zero accumulator and the host's dot_general are
  the same sums, and the remaining differences are the order of two factors, the grouping of a sum of four terms, and
  two spellings of the logistic function and of softplus.  No finiteness of the inputs is needed.
-/
import proofs.«136165_j65618510348951_1_alg».proof.Defs
import proofs.«136165_j65618510348951_1_alg».proof.Proof.Gen.Kernel
import proofs.«136165_j65618510348951_1_alg».proof.Proof.Gen.Kernel.Frame
import proofs.«136165_j65618510348951_1_alg».proof.Proof.Gen.KernelIdeal
import proofs.«136165_j65618510348951_1_alg».proof.Proof.Gen.KernelIdeal.Frame
import proofs.«136165_j65618510348951_1_alg».proof.Proof.Gen.ReferenceIdeal
import proofs.«136165_j65618510348951_1_alg».proof.Proof.Gen.Pre_finite_inputs
import proofs.«136165_j65618510348951_1_alg».proof.Proof.KWhole
import proofs.«136165_j65618510348951_1_alg».proof.Proof.RefB
import proofs.«136165_j65618510348951_1_alg».proof.Proof.Gen.ReferenceIdeal.Run
import proofs.«136165_j65618510348951_1_alg».proof.Proof.Gen.ReferenceIdeal.Read
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both result arrays are the row function, row by row, of arguments that agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq]
  obtain ⟨e0, e1, e2, e3, e4, e5, e6, e7, e8, e9, e10, e11, e12, e13, e14, e15, e16, e17, e18, e19, e20, e21, e22, e23, e24, e25⟩ := hagree c
  rw [e0, e1, e2, e3, e4, e5, e6, e7, e8, e9, e10, e11, e12, e13, e14, e15, e16, e17, e18, e19, e20, e21, e22, e23, e24, e25]
  funext i
  obtain ⟨b, j, rfl⟩ : ∃ (b : Fin 262144) (j : Fin 324), i = ix2 b j := ⟨i 0, i 1, eq_ix2 i⟩
  exact Cert.ReferenceIdeal.Layers.out_apply (Cert.KernelIdeal.Whole.wts m c) b _ _ _ _ j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
